-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x1 : Shape := ⟨2, ![200000, 1]⟩
abbrev S2x6400000 : Shape := ⟨2, ![2, 6400000]⟩
abbrev S1x1 : Shape := ⟨2, ![1, 1]⟩
abbrev S1 : Shape := ⟨1, ![1]⟩
abbrev S1x200 : Shape := ⟨2, ![1, 200]⟩
abbrev S200 : Shape := ⟨1, ![200]⟩
abbrev S6x200x200 : Shape := ⟨3, ![6, 200, 200]⟩
abbrev S6x200 : Shape := ⟨2, ![6, 200]⟩
abbrev S200x1 : Shape := ⟨2, ![200, 1]⟩
abbrev S_ : Shape := ⟨0, ![]⟩

class Facts : Prop where
  bcast_S_S200000x1 : S_.BroadcastsInDim S200000x1 (![] : Fin 0 → Fin S200000x1.rank)
  reducesTo_S200000x1_S_d0_1 : S200000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S1x200 : S_.BroadcastsInDim S1x200 (![] : Fin 0 → Fin S1x200.rank)
  reducesTo_S1x200_S_d0_1 : S1x200.ReducesTo [0, 1] S_
  bcast_S_S200 : S_.BroadcastsInDim S200 (![] : Fin 0 → Fin S200.rank)
  reducesTo_S200_S_d0 : S200.ReducesTo [0] S_
  bcast_S_S6x200x200 : S_.BroadcastsInDim S6x200x200 (![] : Fin 0 → Fin S6x200x200.rank)
  reducesTo_S6x200x200_S_d0_1_2 : S6x200x200.ReducesTo [0, 1, 2] S_
  bcast_S_S6x200 : S_.BroadcastsInDim S6x200 (![] : Fin 0 → Fin S6x200.rank)
  reducesTo_S6x200_S_d0_1 : S6x200.ReducesTo [0, 1] S_
  bcast_S_S200x1 : S_.BroadcastsInDim S200x1 (![] : Fin 0 → Fin S200x1.rank)
  reducesTo_S200x1_S_d0_1 : S200x1.ReducesTo [0, 1] S_

variable [Facts]

def fn_part2 {F : FTy → Type} [FloatOps F] (main_arg8 : FVec F S6x200 .f32) (main_arg9 : FVec F S200x1 .f32) (main_arg10 : FVec F S1 .f32) (main_v33 : IVec S_ 1) : IVec S_ 1 :=
  let main_v34 : FVec F S6x200 .f32 := Host.absf main_arg8
  let main_cst_12 : FVec F S_ .f32 := constant S_ .f32 0x7F800000#32
  let main_v35 : FVec F S6x200 .f32 := broadcastInDim S6x200 ![] bcast_S_S6x200 main_cst_12
  let main_v36 : IVec S6x200 1 := cmpf .olt main_v34 main_v35
  let main_c_13 : IVec S_ 1 := constantI S_ 1 1#1
  let main_v37 : IVec S_ 1 := (fun x v => Host.reduce IntOp.andi x v reducesTo_S6x200_S_d0_1 h_S_) main_v36 main_c_13
  let main_v38 : IVec S_ 1 := andi main_v33 main_v37
  let main_v39 : FVec F S200x1 .f32 := Host.absf main_arg9
  let main_cst_14 : FVec F S_ .f32 := constant S_ .f32 0x7F800000#32
  let main_v40 : FVec F S200x1 .f32 := broadcastInDim S200x1 ![] bcast_S_S200x1 main_cst_14
  let main_v41 : IVec S200x1 1 := cmpf .olt main_v39 main_v40
  let main_c_15 : IVec S_ 1 := constantI S_ 1 1#1
  let main_v42 : IVec S_ 1 := (fun x v => Host.reduce IntOp.andi x v reducesTo_S200x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S1x200 .f32) (main_arg6 : FVec F S200 .f32) (main_arg7 : FVec F S6x200x200 .f32) (main_arg8 : FVec F S6x200 .f32) (main_arg9 : FVec F S200x1 .f32) (main_arg10 : FVec F S1 .f32) (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  let main_v19 : FVec F S1x200 .f32 := Host.absf main_arg5
  let main_cst_6 : FVec F S_ .f32 := constant S_ .f32 0x7F800000#32
  let main_v20 : FVec F S1x200 .f32 := broadcastInDim S1x200 ![] bcast_S_S1x200 main_cst_6
  let main_v21 : IVec S1x200 1 := cmpf .olt main_v19 main_v20
  let main_c_7 : IVec S_ 1 := constantI S_ 1 1#1
  let main_v22 : IVec S_ 1 := (fun x v => Host.reduce IntOp.andi x v reducesTo_S1x200_S_d0_1 h_S_) main_v21 main_c_7
  let main_v23 : IVec S_ 1 := andi main_v18 main_v22
  let main_v24 : FVec F S200 .f32 := Host.absf main_arg6
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S6x200x200 .f32 := Host.absf main_arg7
  let main_cst_10 : FVec F S_ .f32 := constant S_ .f32 0x7F800000#32
  let main_v30 : FVec F S6x200x200 .f32 := broadcastInDim S6x200x200 ![] bcast_S_S6x200x200 main_cst_10
  let main_v31 : IVec S6x200x200 1 := cmpf .olt main_v29 main_v30
  let main_c_11 : IVec S_ 1 := constantI S_ 1 1#1
  let main_v32 : IVec S_ 1 := (fun x v => Host.reduce IntOp.andi x v reducesTo_S6x200x200_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S200000x1 .f32) (main_arg1 : IVec S2x6400000 32) (main_arg2 : FVec F S1x1 .f32) (main_arg3 : FVec F S1 .f32) (main_arg4 : FVec F S1x1 .f32) (main_arg5 : FVec F S1x200 .f32) (main_arg6 : FVec F S200 .f32) (main_arg7 : FVec F S6x200x200 .f32) (main_arg8 : FVec F S6x200 .f32) (main_arg9 : FVec F S200x1 .f32) (main_arg10 : FVec F S1 .f32) : IVec S_ 1 :=
  let main_v0 : FVec F S200000x1 .f32 := Host.absf main_arg0
  let main_cst : FVec F S_ .f32 := constant S_ .f32 0x7F800000#32
  let main_v1 : FVec F S200000x1 .f32 := broadcastInDim S200000x1 ![] bcast_S_S200000x1 main_cst
  let main_v2 : IVec S200000x1 1 := cmpf .olt main_v0 main_v1
  let main_c : IVec S_ 1 := constantI S_ 1 1#1
  let main_v3 : IVec S_ 1 := (fun x v => Host.reduce IntOp.andi x v reducesTo_S200000x1_S_d0_1 h_S_) main_v2 main_c
  let main_v4 : FVec F S1x1 .f32 := Host.absf main_arg2
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x1 .f32 := Host.absf main_arg4
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_arg5 main_arg6 main_arg7 main_arg8 main_arg9 main_arg10 main_v13 main_v16
-- ==== Kernel.lean ====
abbrev S200000x1 : Shape := ⟨2, ![200000, 1]⟩
abbrev S2x6400000 : Shape := ⟨2, ![2, 6400000]⟩
abbrev S1x1 : Shape := ⟨2, ![1, 1]⟩
abbrev S1 : Shape := ⟨1, ![1]⟩
abbrev S1x200 : Shape := ⟨2, ![1, 200]⟩
abbrev S200 : Shape := ⟨1, ![200]⟩
abbrev S6x200x200 : Shape := ⟨3, ![6, 200, 200]⟩
abbrev S6x200 : Shape := ⟨2, ![6, 200]⟩
abbrev S200x1 : Shape := ⟨2, ![200, 1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S8000x1 : Shape := ⟨2, ![8000, 1]⟩
abbrev S8000x200 : Shape := ⟨2, ![8000, 200]⟩
abbrev S1x200x200 : Shape := ⟨3, ![1, 200, 200]⟩
abbrev S200x200 : Shape := ⟨2, ![200, 200]⟩

abbrev nBuf : Space → Nat
  | .hbm => 29
  | .vmem => 15
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S1x1, .f32⟩
  | .hbm, ⟨3, _⟩ => ⟨S1, .f32⟩
  | .hbm, ⟨4, _⟩ => ⟨S1x1, .f32⟩
  | .hbm, ⟨5, _⟩ => ⟨S1x200, .f32⟩
  | .hbm, ⟨6, _⟩ => ⟨S200, .f32⟩
  | .hbm, ⟨7, _⟩ => ⟨S6x200x200, .f32⟩
  | .hbm, ⟨8, _⟩ => ⟨S6x200, .f32⟩
  | .hbm, ⟨9, _⟩ => ⟨S200x1, .f32⟩
  | .hbm, ⟨10, _⟩ => ⟨S1, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000x1, .f32⟩
  | .hbm, ⟨24, _⟩ => ⟨S_, .f32⟩
  | .hbm, ⟨25, _⟩ => ⟨S200000x1, .f32⟩
  | .hbm, ⟨26, _⟩ => ⟨S6400000x1, .i32⟩
  | .hbm, ⟨27, _⟩ => ⟨S200000x1, .f32⟩
  | .hbm, ⟨28, _⟩ => ⟨S200000x1, .f32⟩
  | .local _ .vmem, ⟨0, _⟩ => ⟨S8000x1, .f32⟩
  | .local _ .vmem, ⟨1, _⟩ => ⟨S8000x1, .f32⟩
  | .local _ .vmem, ⟨2, _⟩ => ⟨S8000x1, .f32⟩
  | .local _ .vmem, ⟨3, _⟩ => ⟨S8000x1, .f32⟩
  | .local _ .vmem, ⟨4, _⟩ => ⟨S1x1, .f32⟩
  | .local _ .vmem, ⟨5, _⟩ => ⟨S1, .f32⟩
  | .local _ .vmem, ⟨6, _⟩ => ⟨S1x1, .f32⟩
  | .local _ .vmem, ⟨7, _⟩ => ⟨S1x200, .f32⟩
  | .local _ .vmem, ⟨8, _⟩ => ⟨S200, .f32⟩
  | .local _ .vmem, ⟨9, _⟩ => ⟨S6x200x200, .f32⟩
  | .local _ .vmem, ⟨10, _⟩ => ⟨S6x200, .f32⟩
  | .local _ .vmem, ⟨11, _⟩ => ⟨S200x1, .f32⟩
  | .local _ .vmem, ⟨12, _⟩ => ⟨S1, .f32⟩
  | .local _ .vmem, ⟨13, _⟩ => ⟨S8000x1, .f32⟩
  | .local _ .vmem, ⟨14, _⟩ => ⟨S8000x1, .f32⟩
  | _, _ => ⟨S200000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x200x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x1 : S_.BroadcastsInDim S200000x1 (![] : Fin 0 → Fin S200000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x1_S1x1_0_0 : ∀ a, (![0, 0] : Fin 2 → Nat) a + S1x1.size a ≤ S1x1.size a
  h_S1x1 : 0 < S1x1.numel
  inb_S1_S1_0 : ∀ a, (![0] : Fin 1 → Nat) a + S1.size a ≤ S1.size a
  h_S1 : 0 < S1.numel
  broadcasts_S1x1_S8000x1 : S1x1.Broadcasts S8000x1
  shapeCasts_S1_S1x1 : S1.ShapeCasts S1x1
  inb_S1x200_S1x200_0_0 : ∀ a, (![0, 0] : Fin 2 → Nat) a + S1x200.size a ≤ S1x200.size a
  h_S1x200 : 0 < S1x200.numel
  inb_S200_S200_0 : ∀ a, (![0] : Fin 1 → Nat) a + S200.size a ≤ S200.size a
  h_S200 : 0 < S200.numel
  broadcasts_S8000x1_S8000x200 : S8000x1.Broadcasts S8000x200
  broadcasts_S1x200_S8000x200 : S1x200.Broadcasts S8000x200
  shapeCasts_S200_S1x200 : S200.ShapeCasts S1x200
  bitsLt_bf16_f32 : FTy.bits .bf16 < FTy.bits .f32
  inb_S6x200x200_S1x200x200_0_0_0 : ∀ a, (![0, 0, 0] : Fin 3 → Nat) a + S1x200x200.size a ≤ S6x200x200.size a
  h_S1x200x200 : 0 < S1x200x200.numel
  shapeCasts_S1x200x200_S200x200 : S1x200x200.ShapeCasts S200x200
  inb_S6x200_S1x200_0_0 : ∀ a, (![0, 0] : Fin 2 → Nat) a + S1x200.size a ≤ S6x200.size a
  shapeCasts_S1x200_S200 : S1x200.ShapeCasts S200
  inb_S6x200x200_S1x200x200_1_0_0 : ∀ a, (![1, 0, 0] : Fin 3 → Nat) a + S1x200x200.size a ≤ S6x200x200.size a
  inb_S6x200_S1x200_1_0 : ∀ a, (![1, 0] : Fin 2 → Nat) a + S1x200.size a ≤ S6x200.size a
  inb_S6x200x200_S1x200x200_2_0_0 : ∀ a, (![2, 0, 0] : Fin 3 → Nat) a + S1x200x200.size a ≤ S6x200x200.size a
  inb_S6x200_S1x200_2_0 : ∀ a, (![2, 0] : Fin 2 → Nat) a + S1x200.size a ≤ S6x200.size a
  inb_S6x200x200_S1x200x200_3_0_0 : ∀ a, (![3, 0, 0] : Fin 3 → Nat) a + S1x200x200.size a ≤ S6x200x200.size a
  inb_S6x200_S1x200_3_0 : ∀ a, (![3, 0] : Fin 2 → Nat) a + S1x200.size a ≤ S6x200.size a
  inb_S6x200x200_S1x200x200_4_0_0 : ∀ a, (![4, 0, 0] : Fin 3 → Nat) a + S1x200x200.size a ≤ S6x200x200.size a
  inb_S6x200_S1x200_4_0 : ∀ a, (![4, 0] : Fin 2 → Nat) a + S1x200.size a ≤ S6x200.size a
  inb_S6x200x200_S1x200x200_5_0_0 : ∀ a, (![5, 0, 0] : Fin 3 → Nat) a + S1x200x200.size a ≤ S6x200x200.size a
  inb_S6x200_S1x200_5_0 : ∀ a, (![5, 0] : Fin 2 → Nat) a + S1x200.size a ≤ S6x200.size a
  inb_S200x1_S200x1_0_0 : ∀ a, (![0, 0] : Fin 2 → Nat) a + S200x1.size a ≤ S200x1.size a
  h_S200x1 : 0 < S200x1.numel
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S8000x200_S200x200_S8000x200_1_0_0_1_n_n_wf : DotDims.WF S8000x200 S200x200 S8000x200 [1] [0] [0] [1] [] []
  dot_S8000x200_S200x1_S8000x1_1_0_0_1_n_n_wf : DotDims.WF S8000x200 S200x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S200000x1.size a
  hwx0_0 : ∀ i : grid0.Coords, EltTy.bits .f32 = 32 ∨ (Rect.block (s := S200000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S200000x1.size a
  hwx0_1 : ∀ i : grid0.Coords, EltTy.bits .f32 = 32 ∨ (Rect.block (s := S200000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200.size a ≤ S200.size a
  hwx0_6 : ∀ i : grid0.Coords, EltTy.bits .f32 = 32 ∨ (Rect.block (s := S200) S200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x200x200.size a ≤ S6x200x200.size a
  hwx0_7 : ∀ i : grid0.Coords, EltTy.bits .f32 = 32 ∨ (Rect.block (s := S6x200x200) S6x200x200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x200.size a ≤ S6x200.size a
  hwx0_8 : ∀ i : grid0.Coords, EltTy.bits .f32 = 32 ∨ (Rect.block (s := S6x200) S6x200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200x1.size a ≤ S200x1.size a
  hwx0_9 : ∀ i : grid0.Coords, EltTy.bits .f32 = 32 ∨ (Rect.block (s := S200x1) S200x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x1.size a ≤ S200000x1.size a
  hwx0_11 : ∀ i : grid0.Coords, EltTy.bits .f32 = 32 ∨ (Rect.block (s := S200000x1) S8000x1.size (cc0_transform_11 i) (hinb0_11 i)).WholeWords (EltTy.packing .f32)

variable [Facts₀]

def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S8000x200_S200x200_S8000x200_1_0_0_1_n_n : DotDims S8000x200 S200x200 S8000x200 where
  lhsContracting := [1]
  rhsContracting := [0]
  lhsNonContracting := [0]
  rhsNonContracting := [1]
  lhsBatch := []
  rhsBatch := []
  wf := dot_S8000x200_S200x200_S8000x200_1_0_0_1_n_n_wf
def dot_S8000x200_S200x1_S8000x1_1_0_0_1_n_n : DotDims S8000x200 S200x1 S8000x1 where
  lhsContracting := [1]
  rhsContracting := [0]
  lhsNonContracting := [0]
  rhsNonContracting := [1]
  lhsBatch := []
  rhsBatch := []
  wf := dot_S8000x200_S200x1_S8000x1_1_0_0_1_n_n_wf

abbrev win0_0 : Pipeline.Window sig grid0 :=
  Pipeline.Window.ofSpec (Memref.whole main_v13) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x200x200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S200x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S8000x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S200000x1 : Shape := ⟨2, ![200000, 1]⟩
abbrev S2x6400000 : Shape := ⟨2, ![2, 6400000]⟩
abbrev S1x1 : Shape := ⟨2, ![1, 1]⟩
abbrev S1 : Shape := ⟨1, ![1]⟩
abbrev S1x200 : Shape := ⟨2, ![1, 200]⟩
abbrev S200 : Shape := ⟨1, ![200]⟩
abbrev S6x200x200 : Shape := ⟨3, ![6, 200, 200]⟩
abbrev S6x200 : Shape := ⟨2, ![6, 200]⟩
abbrev S200x1 : Shape := ⟨2, ![200, 1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S200000x200 : Shape := ⟨2, ![200000, 200]⟩
abbrev S1x200x200 : Shape := ⟨3, ![1, 200, 200]⟩
abbrev S200x200 : Shape := ⟨2, ![200, 200]⟩

abbrev nBuf : Space → Nat
  | .hbm => 119
  | .vmem => 0
  | .smem => 0
  | _ => 0

abbrev bufTy : (tb : Table) → Fin (tcTables nBuf tb) → BufTy
  | .hbm, ⟨0, _⟩ => ⟨S200000x1, .f32⟩
  | .hbm, ⟨1, _⟩ => ⟨S2x6400000, .i32⟩
  | .hbm, ⟨2, _⟩ => ⟨S1x1, .f32⟩
  | .hbm, ⟨3, _⟩ => ⟨S1, .f32⟩
  | .hbm, ⟨4, _⟩ => ⟨S1x1, .f32⟩
  | .hbm, ⟨5, _⟩ => ⟨S1x200, .f32⟩
  | .hbm, ⟨6, _⟩ => ⟨S200, .f32⟩
  | .hbm, ⟨7, _⟩ => ⟨S6x200x200, .f32⟩
  | .hbm, ⟨8, _⟩ => ⟨S6x200, .f32⟩
  | .hbm, ⟨9, _⟩ => ⟨S200x1, .f32⟩
  | .hbm, ⟨10, _⟩ => ⟨S1, .f32⟩
  | .hbm, ⟨11, _⟩ => ⟨S1x6400000, .i32⟩
  | .hbm, ⟨12, _⟩ => ⟨S6400000, .i32⟩
  | .hbm, ⟨13, _⟩ => ⟨S1x6400000, .i32⟩
  | .hbm, ⟨14, _⟩ => ⟨S6400000, .i32⟩
  | .hbm, ⟨15, _⟩ => ⟨S_, .i32⟩
  | .hbm, ⟨16, _⟩ => ⟨S6400000, .i32⟩
  | .hbm, ⟨17, _⟩ => ⟨S6400000, .i1⟩
  | .hbm, ⟨18, _⟩ => ⟨S_, .i32⟩
  | .hbm, ⟨19, _⟩ => ⟨S6400000, .i32⟩
  | .hbm, ⟨20, _⟩ => ⟨S6400000, .i32⟩
  | .hbm, ⟨21, _⟩ => ⟨S6400000, .i32⟩
  | .hbm, ⟨22, _⟩ => ⟨S6400000x1, .i32⟩
  | .hbm, ⟨23, _⟩ => ⟨S6400000x1, .f32⟩
  | .hbm, ⟨24, _⟩ => ⟨S_, .f32⟩
  | .hbm, ⟨25, _⟩ => ⟨S200000x1, .f32⟩
  | .hbm, ⟨26, _⟩ => ⟨S6400000x1, .i32⟩
  | .hbm, ⟨27, _⟩ => ⟨S200000x1, .f32⟩
  | .hbm, ⟨28, _⟩ => ⟨S200000x1, .f32⟩
  | .hbm, ⟨29, _⟩ => ⟨S1x1, .f32⟩
  | .hbm, ⟨30, _⟩ => ⟨S200000x1, .f32⟩
  | .hbm, ⟨31, _⟩ => ⟨S200000x1, .f32⟩
  | .hbm, ⟨32, _⟩ => ⟨S200000x1, .f32⟩
  | .hbm, ⟨33, _⟩ => ⟨S200000x1, .f32⟩
  | .hbm, ⟨34, _⟩ => ⟨S200000x200, .f32⟩
  | .hbm, ⟨35, _⟩ => ⟨S1x200, .f32⟩
  | .hbm, ⟨36, _⟩ => ⟨S200000x200, .f32⟩
  | .hbm, ⟨37, _⟩ => ⟨S200000x200, .f32⟩
  | .hbm, ⟨38, _⟩ => ⟨S_, .f32⟩
  | .hbm, ⟨39, _⟩ => ⟨S200000x200, .f32⟩
  | .hbm, ⟨40, _⟩ => ⟨S200000x200, .f32⟩
  | .hbm, ⟨41, _⟩ => ⟨S1x200x200, .f32⟩
  | .hbm, ⟨42, _⟩ => ⟨S200x200, .f32⟩
  | .hbm, ⟨43, _⟩ => ⟨S200000x200, .f32⟩
  | .hbm, ⟨44, _⟩ => ⟨S1x200, .f32⟩
  | .hbm, ⟨45, _⟩ => ⟨S200, .f32⟩
  | .hbm, ⟨46, _⟩ => ⟨S1x200, .f32⟩
  | .hbm, ⟨47, _⟩ => ⟨S200000x200, .f32⟩
  | .hbm, ⟨48, _⟩ => ⟨S200000x200, .f32⟩
  | .hbm, ⟨49, _⟩ => ⟨S_, .f32⟩
  | .hbm, ⟨50, _⟩ => ⟨S200000x200, .f32⟩
  | .hbm, ⟨51, _⟩ => ⟨S200000x200, .f32⟩
  | .hbm, ⟨52, _⟩ => ⟨S1x200x200, .f32⟩
  | .hbm, ⟨53, _⟩ => ⟨S200x200, .f32⟩
  | .hbm, ⟨54, _⟩ => ⟨S200000x200, .f32⟩
  | .hbm, ⟨55, _⟩ => ⟨S1x200, .f32⟩
  | .hbm, ⟨56, _⟩ => ⟨S200, .f32⟩
  | .hbm, ⟨57, _⟩ => ⟨S1x200, .f32⟩
  | .hbm, ⟨58, _⟩ => ⟨S200000x200, .f32⟩
  | .hbm, ⟨59, _⟩ => ⟨S200000x200, .f32⟩
  | .hbm, ⟨60, _⟩ => ⟨S_, .f32⟩
  | .hbm, ⟨61, _⟩ => ⟨S200000x200, .f32⟩
  | .hbm, ⟨62, _⟩ => ⟨S200000x200, .f32⟩
  | .hbm, ⟨63, _⟩ => ⟨S1x200x200, .f32⟩
  | .hbm, ⟨64, _⟩ => ⟨S200x200, .f32⟩
  | .hbm, ⟨65, _⟩ => ⟨S200000x200, .f32⟩
  | .hbm, ⟨66, _⟩ => ⟨S1x200, .f32⟩
  | .hbm, ⟨67, _⟩ => ⟨S200, .f32⟩
  | .hbm, ⟨68, _⟩ => ⟨S1x200, .f32⟩
  | .hbm, ⟨69, _⟩ => ⟨S200000x200, .f32⟩
  | .hbm, ⟨70, _⟩ => ⟨S200000x200, .f32⟩
  | .hbm, ⟨71, _⟩ => ⟨S_, .f32⟩
  | .hbm, ⟨72, _⟩ => ⟨S200000x200, .f32⟩
  | .hbm, ⟨73, _⟩ => ⟨S200000x200, .f32⟩
  | .hbm, ⟨74, _⟩ => ⟨S1x200x200, .f32⟩
  | .hbm, ⟨75, _⟩ => ⟨S200x200, .f32⟩
  | .hbm, ⟨76, _⟩ => ⟨S200000x200, .f32⟩
  | .hbm, ⟨77, _⟩ => ⟨S1x200, .f32⟩
  | .hbm, ⟨78, _⟩ => ⟨S200, .f32⟩
  | .hbm, ⟨79, _⟩ => ⟨S1x200, .f32⟩
  | .hbm, ⟨80, _⟩ => ⟨S200000x200, .f32⟩
  | .hbm, ⟨81, _⟩ => ⟨S200000x200, .f32⟩
  | .hbm, ⟨82, _⟩ => ⟨S_, .f32⟩
  | .hbm, ⟨83, _⟩ => ⟨S200000x200, .f32⟩
  | .hbm, ⟨84, _⟩ => ⟨S200000x200, .f32⟩
  | .hbm, ⟨85, _⟩ => ⟨S1x200x200, .f32⟩
  | .hbm, ⟨86, _⟩ => ⟨S200x200, .f32⟩
  | .hbm, ⟨87, _⟩ => ⟨S200000x200, .f32⟩
  | .hbm, ⟨88, _⟩ => ⟨S1x200, .f32⟩
  | .hbm, ⟨89, _⟩ => ⟨S200, .f32⟩
  | .hbm, ⟨90, _⟩ => ⟨S1x200, .f32⟩
  | .hbm, ⟨91, _⟩ => ⟨S200000x200, .f32⟩
  | .hbm, ⟨92, _⟩ => ⟨S200000x200, .f32⟩
  | .hbm, ⟨93, _⟩ => ⟨S_, .f32⟩
  | .hbm, ⟨94, _⟩ => ⟨S200000x200, .f32⟩
  | .hbm, ⟨95, _⟩ => ⟨S200000x200, .f32⟩
  | .hbm, ⟨96, _⟩ => ⟨S1x200x200, .f32⟩
  | .hbm, ⟨97, _⟩ => ⟨S200x200, .f32⟩
  | .hbm, ⟨98, _⟩ => ⟨S200000x200, .f32⟩
  | .hbm, ⟨99, _⟩ => ⟨S1x200, .f32⟩
  | .hbm, ⟨100, _⟩ => ⟨S200, .f32⟩
  | .hbm, ⟨101, _⟩ => ⟨S1x200, .f32⟩
  | .hbm, ⟨102, _⟩ => ⟨S200000x200, .f32⟩
  | .hbm, ⟨103, _⟩ => ⟨S200000x200, .f32⟩
  | .hbm, ⟨104, _⟩ => ⟨S_, .f32⟩
  | .hbm, ⟨105, _⟩ => ⟨S200000x200, .f32⟩
  | .hbm, ⟨106, _⟩ => ⟨S200000x200, .f32⟩
  | .hbm, ⟨107, _⟩ => ⟨S200000x1, .f32⟩
  | .hbm, ⟨108, _⟩ => ⟨S1x1, .f32⟩
  | .hbm, ⟨109, _⟩ => ⟨S200000x1, .f32⟩
  | .hbm, ⟨110, _⟩ => ⟨S200000x1, .f32⟩
  | .hbm, ⟨111, _⟩ => ⟨S200000x1, .f32⟩
  | .hbm, ⟨112, _⟩ => ⟨S200000x1, .f32⟩
  | .hbm, ⟨113, _⟩ => ⟨S_, .f32⟩
  | .hbm, ⟨114, _⟩ => ⟨S200000x1, .f32⟩
  | .hbm, ⟨115, _⟩ => ⟨S200000x1, .f32⟩
  | .hbm, ⟨116, _⟩ => ⟨S_, .f32⟩
  | .hbm, ⟨117, _⟩ => ⟨S200000x1, .f32⟩
  | .hbm, ⟨118, _⟩ => ⟨S200000x1, .f32⟩
  | _, _ => ⟨S200000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_call2_cst : Ref sig .tc := ⟨.hbm, 60, rfl⟩
abbrev main_call2_v0 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call3_cst : Ref sig .tc := ⟨.hbm, 71, rfl⟩
abbrev main_call3_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call4_cst : Ref sig .tc := ⟨.hbm, 82, rfl⟩
abbrev main_call4_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call5_cst : Ref sig .tc := ⟨.hbm, 93, rfl⟩
abbrev main_call5_v0 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_call6_cst : Ref sig .tc := ⟨.hbm, 104, rfl⟩
abbrev main_call6_v0 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_1 : Ref sig .tc := ⟨.hbm, 113, rfl⟩
abbrev main_v85 : Ref sig .tc := ⟨.hbm, 114, rfl⟩
abbrev main_v86 : Ref sig .tc := ⟨.hbm, 115, rfl⟩
abbrev main_cst_2 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S200_S1x200_1 : S200.BroadcastsInDim S1x200 (![1] : Fin 1 → Fin S1x200.rank)
  bcast_S1x200_S200000x200_0_1 : S1x200.BroadcastsInDim S200000x200 (![0, 1] : Fin 2 → Fin S200000x200.rank)
  bcast_S_S200000x200 : S_.BroadcastsInDim S200000x200 (![] : Fin 0 → Fin S200000x200.rank)
  slices_S6x200x200_S1x200x200_0_0_0 : S6x200x200.Slices ![0, 0, 0] S1x200x200
  shapeCasts_S1x200x200_S200x200 : S1x200x200.ShapeCasts S200x200
  slices_S6x200_S1x200_0_0 : S6x200.Slices ![0, 0] S1x200
  shapeCasts_S1x200_S200 : S1x200.ShapeCasts S200
  slices_S6x200x200_S1x200x200_1_0_0 : S6x200x200.Slices ![1, 0, 0] S1x200x200
  slices_S6x200_S1x200_1_0 : S6x200.Slices ![1, 0] S1x200
  slices_S6x200x200_S1x200x200_2_0_0 : S6x200x200.Slices ![2, 0, 0] S1x200x200
  slices_S6x200_S1x200_2_0 : S6x200.Slices ![2, 0] S1x200
  slices_S6x200x200_S1x200x200_3_0_0 : S6x200x200.Slices ![3, 0, 0] S1x200x200
  slices_S6x200_S1x200_3_0 : S6x200.Slices ![3, 0] S1x200
  slices_S6x200x200_S1x200x200_4_0_0 : S6x200x200.Slices ![4, 0, 0] S1x200x200
  slices_S6x200_S1x200_4_0 : S6x200.Slices ![4, 0] S1x200
  slices_S6x200x200_S1x200x200_5_0_0 : S6x200x200.Slices ![5, 0, 0] S1x200x200
  slices_S6x200_S1x200_5_0 : S6x200.Slices ![5, 0] S1x200
  gather_S200000x1_S6400000x1_S6400000x1_1_0_n_n_0_1_11_wf : GatherDims.WF S200000x1 S6400000x1 S6400000x1 [1] [0] [] [0] [] 1 ![1, 1]
  scatter_S200000x1_S6400000x1_S6400000x1_1_0_0_1_wf : ScatterDims.WF S200000x1 S6400000x1 S6400000x1 [1] [0] [0] 1
  dot_S200000x1_S1x1_S200000x1_1_0_0_1_n_n_wf : DotDims.WF S200000x1 S1x1 S200000x1 [1] [0] [0] [1] [] []
  dot_S200000x1_S1x200_S200000x200_1_0_0_1_n_n_wf : DotDims.WF S200000x1 S1x200 S200000x200 [1] [0] [0] [1] [] []
  dot_S200000x200_S200x200_S200000x200_1_0_0_1_n_n_wf : DotDims.WF S200000x200 S200x200 S200000x200 [1] [0] [0] [1] [] []
  dot_S200000x200_S200x1_S200000x1_1_0_0_1_n_n_wf : DotDims.WF S200000x200 S200x1 S200000x1 [1] [0] [0] [1] [] []

variable [Facts₀]

def gather_S200000x1_S6400000x1_S6400000x1_1_0_n_n_0_1_11 : GatherDims S200000x1 S6400000x1 S6400000x1 where
  offsetDims := [1]
  collapsedSliceDims := [0]
  operandBatchingDims := []
  startIndicesBatchingDims := []
  startIndexMap := [0]
  indexVectorDim := 1
  sliceSizes := ![1, 1]
  wf := gather_S200000x1_S6400000x1_S6400000x1_1_0_n_n_0_1_11_wf
def scatter_S200000x1_S6400000x1_S6400000x1_1_0_0_1 : ScatterDims S200000x1 S6400000x1 S6400000x1 where
  updateWindowDims := [1]
  insertedWindowDims := [0]
  scatterDimsToOperandDims := [0]
  indexVectorDim := 1
  wf := scatter_S200000x1_S6400000x1_S6400000x1_1_0_0_1_wf
def dot_S200000x1_S1x1_S200000x1_1_0_0_1_n_n : DotDims S200000x1 S1x1 S200000x1 where
  lhsContracting := [1]
  rhsContracting := [0]
  lhsNonContracting := [0]
  rhsNonContracting := [1]
  lhsBatch := []
  rhsBatch := []
  wf := dot_S200000x1_S1x1_S200000x1_1_0_0_1_n_n_wf
def dot_S200000x1_S1x200_S200000x200_1_0_0_1_n_n : DotDims S200000x1 S1x200 S200000x200 where
  lhsContracting := [1]
  rhsContracting := [0]
  lhsNonContracting := [0]
  rhsNonContracting := [1]
  lhsBatch := []
  rhsBatch := []
  wf := dot_S200000x1_S1x200_S200000x200_1_0_0_1_n_n_wf
def dot_S200000x200_S200x200_S200000x200_1_0_0_1_n_n : DotDims S200000x200 S200x200 S200000x200 where
  lhsContracting := [1]
  rhsContracting := [0]
  lhsNonContracting := [0]
  rhsNonContracting := [1]
  lhsBatch := []
  rhsBatch := []
  wf := dot_S200000x200_S200x200_S200000x200_1_0_0_1_n_n_wf
def dot_S200000x200_S200x1_S200000x1_1_0_0_1_n_n : DotDims S200000x200 S200x1 S200000x1 where
  lhsContracting := [1]
  rhsContracting := [0]
  lhsNonContracting := [0]
  rhsNonContracting := [1]
  lhsBatch := []
  rhsBatch := []
  wf := dot_S200000x200_S200x1_S200000x1_1_0_0_1_n_n_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«174690_j85186381349438_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibSage.lean ====
/-
  A mean-aggregating graph layer over the extended reals, for any extents: the dense layer max (A · Wl + X · Wr + b, 0)
  and the output projection H · Wo + bo as whole-array functions (`layerFn`, `outFn`), their host spelling
  (`host_layer`, `host_out`: dot_general, a bias broadcast from a vector, relu) and their block-body spelling
  (`block_layer`, `block_out`: operands narrowed to sixteen bits, products into zeros, a one-row bias), row locality
  (`layerAt_row`, `outAt_row`), and the mean by division against the mean by the reciprocal (`mean_div_eq_mul`,
  over `count_real`: a guarded count of scattered ones is a nonzero real).

  The arithmetic both programs share.

  A layer takes, for every node n, the mean A[n, :] of its in-neighbours' features and its own features X[n, :], and
  returns  max (A[n, :] · Wl + X[n, :] · Wr + b, 0);  the output projection returns  H[n, :] · Wo + bo.  Every entry of
  a layer's result depends on ONE row of A and of X, so the same formula describes a block of rows and the whole array.
  One program adds the bias before the second product and the other after it: addition of extended reals is commutative
  and associative, so the two orders agree at the infinities too.

  The mean divides each aggregated row by c[n] = max (number of edges into n, 1).  The count is a finite sum of ones, a
  real number, so c[n] is a real number that is at least 1; dividing an extended real by a nonzero real IS multiplying it
  by the reciprocal, so  a / c[n] = a · (1 / c[n])  for every extended real a.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«174690_j85186381349438_1_alg».proof.Proof.LibFinite
import proofs.«174690_j85186381349438_1_alg».proof.Proof.LibConsts
import proofs.«174690_j85186381349438_1_alg».proof.Proof.LibDotSum

noncomputable section

namespace Cert.Sage

open Idealize.ShloMosaic Idealize.ShloMosaic.ValueIdx Cert.LibFinite
open scoped BigOperators

variable {M K N : Nat}

/-! ## The layer and the output projection, entry by entry -/

/-- Entry (r, j) of a layer: the two row-by-column products, the bias, the positive part. -/
def layerAt (A X : (⟨2, ![M, K]⟩ : Shape).Idx → EReal) (Wl Wr : (⟨2, ![K, N]⟩ : Shape).Idx → EReal)
    (b : Fin N → EReal) (r : Fin M) (j : Fin N) : EReal :=
  max (((∑ k : Fin K, A (ix2 r k) * Wl (ix2 k j)) + ∑ k : Fin K, X (ix2 r k) * Wr (ix2 k j)) + b j) 0

/-- A layer as one array. -/
def layerFn (A X : (⟨2, ![M, K]⟩ : Shape).Idx → EReal) (Wl Wr : (⟨2, ![K, N]⟩ : Shape).Idx → EReal)
    (b : Fin N → EReal) : (⟨2, ![M, N]⟩ : Shape).Idx → EReal :=
  fun i => layerAt A X Wl Wr b (i 0) (i 1)

theorem layerFn_ix2 (A X : (⟨2, ![M, K]⟩ : Shape).Idx → EReal) (Wl Wr : (⟨2, ![K, N]⟩ : Shape).Idx → EReal)
    (b : Fin N → EReal) (r : Fin M) (j : Fin N) : layerFn A X Wl Wr b (ix2 r j) = layerAt A X Wl Wr b r j := rfl

/-- Entry (r, j) of the output projection. -/
def outAt (H : (⟨2, ![M, K]⟩ : Shape).Idx → EReal) (Wo : (⟨2, ![K, N]⟩ : Shape).Idx → EReal) (bo : Fin N → EReal)
    (r : Fin M) (j : Fin N) : EReal :=
  (∑ k : Fin K, H (ix2 r k) * Wo (ix2 k j)) + bo j

/-- The output projection as one array. -/
def outFn (H : (⟨2, ![M, K]⟩ : Shape).Idx → EReal) (Wo : (⟨2, ![K, N]⟩ : Shape).Idx → EReal) (bo : Fin N → EReal) :
    (⟨2, ![M, N]⟩ : Shape).Idx → EReal :=
  fun i => outAt H Wo bo (i 0) (i 1)

theorem outFn_ix2 (H : (⟨2, ![M, K]⟩ : Shape).Idx → EReal) (Wo : (⟨2, ![K, N]⟩ : Shape).Idx → EReal) (bo : Fin N → EReal)
    (r : Fin M) (j : Fin N) : outFn H Wo bo (ix2 r j) = outAt H Wo bo r j := rfl

/-- Row r of a block is row n of the array: a layer's entry in that row is the same number. -/
theorem layerAt_row {Mb : Nat} (Ab Xb : (⟨2, ![Mb, K]⟩ : Shape).Idx → EReal) (A X : (⟨2, ![M, K]⟩ : Shape).Idx → EReal)
    (Wlb Wrb Wl Wr : (⟨2, ![K, N]⟩ : Shape).Idx → EReal) (bb b : Fin N → EReal) (r : Fin Mb) (n : Fin M)
    (hA : ∀ k, Ab (ix2 r k) = A (ix2 n k)) (hX : ∀ k, Xb (ix2 r k) = X (ix2 n k))
    (hWl : ∀ k j, Wlb (ix2 k j) = Wl (ix2 k j)) (hWr : ∀ k j, Wrb (ix2 k j) = Wr (ix2 k j)) (hb : ∀ j, bb j = b j)
    (j : Fin N) : layerAt Ab Xb Wlb Wrb bb r j = layerAt A X Wl Wr b n j := by
  unfold layerAt
  rw [hb j]
  simp only [hA, hX, hWl, hWr]

/-- The same for the output projection. -/
theorem outAt_row {Mb : Nat} (Hb : (⟨2, ![Mb, K]⟩ : Shape).Idx → EReal) (H : (⟨2, ![M, K]⟩ : Shape).Idx → EReal)
    (Wob Wo : (⟨2, ![K, N]⟩ : Shape).Idx → EReal) (bob bo : Fin N → EReal) (r : Fin Mb) (n : Fin M)
    (hH : ∀ k, Hb (ix2 r k) = H (ix2 n k)) (hWo : ∀ k j, Wob (ix2 k j) = Wo (ix2 k j)) (hb : ∀ j, bob j = bo j)
    (j : Fin N) : outAt Hb Wob bob r j = outAt H Wo bo n j := by
  unfold outAt
  rw [hb j]
  simp only [hH, hWo]

/-! ## Bias rows and the zero splat read at an index -/

/-- A length-N vector laid out as one row and repeated down M rows reads, at (r, j), its entry j. -/
theorem bias_apply {α : Type} (h1 : (⟨1, ![N]⟩ : Shape).BroadcastsInDim ⟨2, ![1, N]⟩ ![1])
    (h2 : (⟨2, ![1, N]⟩ : Shape).BroadcastsInDim ⟨2, ![M, N]⟩ ![0, 1]) (v : (⟨1, ![N]⟩ : Shape).Idx → α)
    (r : Fin M) (j : Fin N) :
    broadcastInDim ⟨2, ![M, N]⟩ ![0, 1] h2 (broadcastInDim ⟨2, ![1, N]⟩ ![1] h1 v) (ix2 r j) = v (ix1 j) := by
  rw [broadcastInDim_apply ![0, 1] h2 _ (ix2 r j) (ix2 (0 : Fin 1) j) (fun ax => by
    match ax with
    | ⟨0, _⟩ => rfl
    | ⟨1, _⟩ =>
      show j.val = if N = 1 then 0 else j.val
      split
      · have := j.isLt; omega
      · rfl)]
  exact broadcastInDim_apply ![1] h1 v (ix2 (0 : Fin 1) j) (ix1 j) (fun ax => by
    match ax with
    | ⟨0, _⟩ =>
      show j.val = if N = 1 then 0 else j.val
      split
      · have := j.isLt; omega
      · rfl)

/-! ## The host's spelling of a layer and of the output projection -/

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- (A · Wl + b) + X · Wr, then the positive part: the layer, the bias moved past the second product. -/
theorem host_layer (A X : FVec Ideal ⟨2, ![M, K]⟩ .f32) (Wl Wr : FVec Ideal ⟨2, ![K, N]⟩ .f32)
    (bv : FVec Ideal ⟨1, ![N]⟩ .f32) :
    maximumf (addf (addf (Host.dotGeneral d none A Wl)
        (broadcastInDim ⟨2, ![M, N]⟩ ![0, 1] h2 (broadcastInDim ⟨2, ![1, N]⟩ ![1] h1 bv)))
        (Host.dotGeneral d none X Wr))
      (broadcastInDim ⟨2, ![M, N]⟩ ![] h0 (constant ⟨0, ![]⟩ .f32 0x00000000#32))
    = layerFn A X Wl Wr (fun j => bv (ix1 j)) := by
  funext i
  obtain ⟨r, j, rfl⟩ : ∃ (r : Fin M) (j : Fin N), i = ix2 r j := ⟨i 0, i 1, eq_ix2 i⟩
  show max ((Host.dotGeneral d none A Wl (ix2 r j)
      + broadcastInDim ⟨2, ![M, N]⟩ ![0, 1] h2 (broadcastInDim ⟨2, ![1, N]⟩ ![1] h1 bv) (ix2 r j))
      + Host.dotGeneral d none X Wr (ix2 r j)) (Ideal.ofBits .f32 0x00000000#32) = layerAt A X Wl Wr (fun j => bv (ix1 j)) r j
  rw [Cert.Lib.dotGeneral_rc_apply d hlc hrc hln hrn hlb hrb, Cert.Lib.dotGeneral_rc_apply d hlc hrc hln hrn hlb hrb,
    bias_apply, Cert.LibConsts.ofBits_zero]
  unfold layerAt
  rw [add_right_comm]

include hlc hrc hln hrn hlb hrb in
/-- H · Wo + bo: the output projection. -/
theorem host_out (H : FVec Ideal ⟨2, ![M, K]⟩ .f32) (Wo : FVec Ideal ⟨2, ![K, N]⟩ .f32) (bv : FVec Ideal ⟨1, ![N]⟩ .f32) :
    addf (Host.dotGeneral d none H Wo)
      (broadcastInDim ⟨2, ![M, N]⟩ ![0, 1] h2 (broadcastInDim ⟨2, ![1, N]⟩ ![1] h1 bv))
    = outFn H Wo (fun j => bv (ix1 j)) := by
  funext i
  obtain ⟨r, j, rfl⟩ : ∃ (r : Fin M) (j : Fin N), i = ix2 r j := ⟨i 0, i 1, eq_ix2 i⟩
  show Host.dotGeneral d none H Wo (ix2 r j)
      + broadcastInDim ⟨2, ![M, N]⟩ ![0, 1] h2 (broadcastInDim ⟨2, ![1, N]⟩ ![1] h1 bv) (ix2 r j) = outAt H Wo (fun j => bv (ix1 j)) r j
  rw [Cert.Lib.dotGeneral_rc_apply d hlc hrc hln hrn hlb hrb, bias_apply]
  rfl

end Host

/-! ## A block body's spelling of a layer and of the output projection -/

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : (⟨2, ![1, N]⟩ : Shape).Broadcasts ⟨2, ![M, N]⟩)

include hlc hrc hln hrn hlb hrb in
/-- (A · Wl + X · Wr) + b, then the positive part, the four operands narrowed to sixteen bits first (no change over
    the extended reals) and each product accumulated into zeros. -/
theorem block_layer (hbits : FTy.bf16.bits < FTy.f32.bits) (A X : FVec Ideal ⟨2, ![M, K]⟩ .f32) (Wl Wr : FVec Ideal ⟨2, ![K, N]⟩ .f32)
    (b : FVec Ideal ⟨2, ![1, N]⟩ .f32) :
    maximumf (addf (addf
        (matmul d none (truncf .bf16 A hbits) (truncf .bf16 Wl hbits) (constant ⟨2, ![M, N]⟩ .f32 0x00000000#32))
        (matmul d none (truncf .bf16 X hbits) (truncf .bf16 Wr hbits) (constant ⟨2, ![M, N]⟩ .f32 0x00000000#32)))
        (broadcastTo ⟨2, ![M, N]⟩ b hb))
      (broadcast ⟨2, ![M, N]⟩ (Scalar.ofBits (F := Ideal) .f32 0x00000000#32))
    = layerFn A X Wl Wr (fun j => b (ix2 (0 : Fin 1) j)) := by
  funext i
  obtain ⟨r, j, rfl⟩ : ∃ (r : Fin M) (j : Fin N), i = ix2 r j := ⟨i 0, i 1, eq_ix2 i⟩
  show max ((matmul d none (truncf .bf16 A hbits) (truncf .bf16 Wl hbits) (constant ⟨2, ![M, N]⟩ .f32 0x00000000#32) (ix2 r j)
      + matmul d none (truncf .bf16 X hbits) (truncf .bf16 Wr hbits) (constant ⟨2, ![M, N]⟩ .f32 0x00000000#32) (ix2 r j))
      + broadcastTo ⟨2, ![M, N]⟩ b hb (ix2 r j)) (Ideal.ofBits .f32 0x00000000#32) = layerAt A X Wl Wr (fun j => b (ix2 (0 : Fin 1) j)) r j
  rw [Cert.Lib.matmul_rc_apply d hlc hrc hln hrn hlb hrb, Cert.Lib.matmul_rc_apply d hlc hrc hln hrn hlb hrb,
    broadcastTo_1b_ab_apply, Cert.LibConsts.ofBits_zero]
  rfl

include hlc hrc hln hrn hlb hrb in
/-- H · Wo + bo with H and Wo narrowed first and the product accumulated into zeros. -/
theorem block_out (hbits : FTy.bf16.bits < FTy.f32.bits) (H : FVec Ideal ⟨2, ![M, K]⟩ .f32) (Wo : FVec Ideal ⟨2, ![K, N]⟩ .f32)
    (b : FVec Ideal ⟨2, ![1, N]⟩ .f32) :
    addf (matmul d none (truncf .bf16 H hbits) (truncf .bf16 Wo hbits) (constant ⟨2, ![M, N]⟩ .f32 0x00000000#32))
      (broadcastTo ⟨2, ![M, N]⟩ b hb)
    = outFn H Wo (fun j => b (ix2 (0 : Fin 1) j)) := by
  funext i
  obtain ⟨r, j, rfl⟩ : ∃ (r : Fin M) (j : Fin N), i = ix2 r j := ⟨i 0, i 1, eq_ix2 i⟩
  show matmul d none (truncf .bf16 H hbits) (truncf .bf16 Wo hbits) (constant ⟨2, ![M, N]⟩ .f32 0x00000000#32) (ix2 r j)
      + broadcastTo ⟨2, ![M, N]⟩ b hb (ix2 r j) = outAt H Wo (fun j => b (ix2 (0 : Fin 1) j)) r j
  rw [Cert.Lib.matmul_rc_apply d hlc hrc hln hrn hlb hrb, broadcastTo_1b_ab_apply]
  rfl

end Block

/-! ## The in-degree, and the mean by division and by the reciprocal -/

/-- max (number of updates landing on n, 1) is a real number other than zero: ones accumulated into zeros. -/
theorem count_real {sN sE1 sE : Shape} {w : Nat} (sc : ScatterDims sN sE1 sE) (idx : IVec sE1 w)
    (Z One : FVec Ideal sN .f32) (O : FVec Ideal sE .f32) (hZ : ∀ n, Z n = 0) (hO : ∀ j, O j = 1)
    (hOne : ∀ n, One n = 1) (n : sN.Idx) :
    ∃ r : ℝ, r ≠ 0 ∧ maximumf (Host.scatterAdd sc Z idx O) One n = (r : EReal) := by
  have hs : IsFin (Host.scatterAdd sc Z idx O n) := by
    show IsFin (Z n + ∑ j ∈ Finset.univ.filter (fun j => sc.resultIdx? j idx = some n), O j)
    rw [hZ]
    exact isFin_zero.add (isFin_sum _ _ fun j _ => by rw [hO]; exact isFin_one)
  obtain ⟨a, ha⟩ := isFin_iff.mp hs
  refine ⟨max a 1, (lt_of_lt_of_le one_pos (le_max_right a 1)).ne', ?_⟩
  show max (Host.scatterAdd sc Z idx O n) (One n) = _
  rw [ha, hOne, ← EReal.coe_one]
  exact (EReal.coe_strictMono.monotone.map_max).symm

/-- Two broadcasts in a row read their operand at one index. -/
theorem bcast2_reads {sN sN1 sNW : Shape} {d1 : Fin sN.rank → Fin sN1.rank} (h1 : sN.BroadcastsInDim sN1 d1)
    {d2 : Fin sN1.rank → Fin sNW.rank} (h2 : sN1.BroadcastsInDim sNW d2) :
    ∃ π : sNW.Idx → sN.Idx, ∀ (v : sN.Idx → EReal) (i : sNW.Idx),
      broadcastInDim sNW d2 h2 (broadcastInDim sN1 d1 h1 v) i = v (π i) :=
  ⟨_, fun _ _ => rfl⟩

/-- Dividing the aggregate by the guarded in-degree is multiplying it by the guarded in-degree's reciprocal. -/
theorem mean_div_eq_mul {s0 sN sN1 sNW sE1 sE : Shape} {w : Nat} (sc : ScatterDims sN sE1 sE) (idx : IVec sE1 w)
    {d0N : Fin s0.rank → Fin sN.rank} (h0N : s0.BroadcastsInDim sN d0N)
    {d0E : Fin s0.rank → Fin sE.rank} (h0E : s0.BroadcastsInDim sE d0E)
    {d1 : Fin sN.rank → Fin sN1.rank} (h1 : sN.BroadcastsInDim sN1 d1)
    {d2 : Fin sN1.rank → Fin sNW.rank} (h2 : sN1.BroadcastsInDim sNW d2) (agg : FVec Ideal sNW .f32) :
    Host.divf agg (broadcastInDim sNW d2 h2 (broadcastInDim sN1 d1 h1
      (maximumf (Host.scatterAdd sc (broadcastInDim sN d0N h0N (constant s0 .f32 0x00000000#32)) idx
          (broadcastInDim sE d0E h0E (constant s0 .f32 0x3F800000#32)))
        (broadcastInDim sN d0N h0N (constant s0 .f32 0x3F800000#32)))))
    = mulf agg (broadcastInDim sNW d2 h2 (broadcastInDim sN1 d1 h1
      (Host.divf (broadcastInDim sN d0N h0N (constant s0 .f32 0x3F800000#32))
        (maximumf (Host.scatterAdd sc (broadcastInDim sN d0N h0N (constant s0 .f32 0x00000000#32)) idx
            (broadcastInDim sE d0E h0E (constant s0 .f32 0x3F800000#32)))
          (broadcastInDim sN d0N h0N (constant s0 .f32 0x3F800000#32)))))) := by
  obtain ⟨π, hπ⟩ := bcast2_reads h1 h2
  funext i
  show Ideal.div (agg i) (broadcastInDim sNW d2 h2 (broadcastInDim sN1 d1 h1 _) i)
    = agg i * broadcastInDim sNW d2 h2 (broadcastInDim sN1 d1 h1 _) i
  rw [hπ, hπ]
  obtain ⟨r, hr, hc⟩ := count_real sc idx (broadcastInDim sN d0N h0N (constant s0 .f32 0x00000000#32))
    (broadcastInDim sN d0N h0N (constant s0 .f32 0x3F800000#32)) (broadcastInDim sE d0E h0E (constant s0 .f32 0x3F800000#32))
    (fun _ => Cert.LibConsts.ofBits_zero) (fun _ => Cert.LibConsts.ofBits_one) (fun _ => Cert.LibConsts.ofBits_one) (π i)
  show Ideal.div (agg i) _ = agg i * Ideal.div (Ideal.ofBits .f32 0x3F800000#32) _
  rw [hc, Cert.LibConsts.ofBits_one, Ideal.div_coe hr, Ideal.div_coe hr, one_mul]

end Cert.Sage

end
-- ==== Proof.LibSlabs.lean ====
/-
  A stack of matrices [L, a, b] and a stack of rows [L, b], taken one member at a time.

  A program takes member o of a stack in one of two ways: the host cuts it with a unit-stride slice at offsets
  (o, 0, 0) and drops the leading unit axis with a reshape; a block body loads it through the rectangle at those
  offsets and drops the unit axis with a shape cast.  Either way entry (k, l) of the result is entry (o, k, l) of the
  stack, and entry j of a row is entry (o, j) of the stack of rows.  Stated for any extents.
-/
import Idealize.ShloMosaic.Lib.ValueIdx
import Idealize.ShloMosaic.Lib.ValueLayout
import Idealize.ShloMosaic.Lib.Pipeline.Value
import Idealize.ShloMosaic.Lib.Pipeline.FrameBody

noncomputable section

namespace Cert.Slabs

open Idealize.ShloMosaic Idealize.ShloMosaic.ValueIdx

variable {α : Type} {L a b : ℕ}

/-- Member o of a stack of matrices: entry (k, l) is the stack's entry (o, k, l). -/
def slab (x : (⟨3, ![L, a, b]⟩ : Shape).Idx → α) (o : ℕ) (ho : o < L) : (⟨2, ![a, b]⟩ : Shape).Idx → α :=
  fun q => x (ix3 (⟨o, ho⟩ : Fin L) (q 0) (q 1))

/-- Member o of a stack of rows: entry j is the stack's entry (o, j). -/
def row (x : (⟨2, ![L, b]⟩ : Shape).Idx → α) (o : ℕ) (ho : o < L) : Fin b → α :=
  fun j => x (ix2 (⟨o, ho⟩ : Fin L) j)

/-- A vector [b] as a function of its one coordinate. -/
def vecRow (v : (⟨1, ![b]⟩ : Shape).Idx → α) : Fin b → α := fun j => v (ix1 j)

/-- The one row of a [1, b] matrix as a function of the column. -/
def oneRow (v : (⟨2, ![1, b]⟩ : Shape).Idx → α) : Fin b → α := fun j => v (ix2 (0 : Fin 1) j)

/-- A vector laid out as one row is still that vector. -/
theorem oneRow_cast (v : (⟨1, ![b]⟩ : Shape).Idx → α) (h : (⟨1, ![b]⟩ : Shape).ShapeCasts ⟨2, ![1, b]⟩) :
    oneRow (shapeCast ⟨2, ![1, b]⟩ v h) = vecRow v := by
  funext j
  exact shapeCast_a_1a_apply v h (0 : Fin 1) j

/-! ## By a slice and a reshape -/

/-- The slice at offsets (o, 0, 0) of extents [1, a, b], reshaped to [a, b], is member o. -/
theorem slice_slab (o : ℕ) (ho : o < L) (x : (⟨3, ![L, a, b]⟩ : Shape).Idx → α)
    (hs : (⟨3, ![L, a, b]⟩ : Shape).Slices ![o, 0, 0] ⟨3, ![1, a, b]⟩)
    (hc : (⟨3, ![1, a, b]⟩ : Shape).ShapeCasts ⟨2, ![a, b]⟩) :
    shapeCast ⟨2, ![a, b]⟩ (extractStridedSlice ⟨3, ![1, a, b]⟩ ![o, 0, 0] x hs) hc = slab x o ho := by
  funext q
  obtain ⟨k, l, rfl⟩ : ∃ (k : Fin a) (l : Fin b), q = ix2 k l := ⟨q 0, q 1, eq_ix2 q⟩
  rw [shapeCast_1ab_ab_apply]
  refine extractStridedSlice_apply _ x hs _ (ix3 (⟨o, ho⟩ : Fin L) k l) fun ax => ?_
  match ax with
  | ⟨0, _⟩ => rfl
  | ⟨1, _⟩ => exact (Nat.zero_add _).symm
  | ⟨2, _⟩ => exact (Nat.zero_add _).symm

/-- The slice at offsets (o, 0) of extents [1, b], reshaped to [b], read at j, is entry j of member o. -/
theorem slice_row (o : ℕ) (ho : o < L) (x : (⟨2, ![L, b]⟩ : Shape).Idx → α)
    (hs : (⟨2, ![L, b]⟩ : Shape).Slices ![o, 0] ⟨2, ![1, b]⟩)
    (hc : (⟨2, ![1, b]⟩ : Shape).ShapeCasts ⟨1, ![b]⟩) :
    vecRow (shapeCast ⟨1, ![b]⟩ (extractStridedSlice ⟨2, ![1, b]⟩ ![o, 0] x hs) hc) = row x o ho := by
  funext j
  show shapeCast ⟨1, ![b]⟩ (extractStridedSlice ⟨2, ![1, b]⟩ ![o, 0] x hs) hc (ix1 j) = _
  rw [shapeCast_1a_a_apply]
  refine extractStridedSlice_apply _ x hs _ (ix2 (⟨o, ho⟩ : Fin L) j) fun ax => ?_
  match ax with
  | ⟨0, _⟩ => rfl
  | ⟨1, _⟩ => exact (Nat.zero_add _).symm

/-! ## By a load through the member's rectangle -/

variable {Val : EltTy → Type} {e : EltTy}

/-- The block loaded through the rectangle at offsets (o, 0, 0) of extents [1, a, b], read at (0, k, l), is the
    stack's entry (o, k, l). -/
theorem ld_slab_apply (o : ℕ) (ho : o < L) (x : (⟨3, ![L, a, b]⟩ : Shape).Idx → Val e)
    (inb : ∀ ax, (![o, 0, 0] : Fin 3 → ℕ) ax + (⟨3, ![1, a, b]⟩ : Shape).size ax ≤ (⟨3, ![L, a, b]⟩ : Shape).size ax)
    (k : Fin a) (l : Fin b) :
    View.ld x (Rect.unit (s := ⟨3, ![L, a, b]⟩) ![o, 0, 0] (⟨3, ![1, a, b]⟩ : Shape).size inb) (ix3 (0 : Fin 1) k l)
      = x (ix3 (⟨o, ho⟩ : Fin L) k l) := by
  refine congrArg x (funext fun ax => Fin.ext ?_)
  match ax with
  | ⟨0, _⟩ => show o + 1 * 0 = o; omega
  | ⟨1, _⟩ => show 0 + 1 * k.val = k.val; omega
  | ⟨2, _⟩ => show 0 + 1 * l.val = l.val; omega

/-- The same block with its unit axis dropped by a shape cast is member o. -/
theorem ld_slab (o : ℕ) (ho : o < L) (x : (⟨3, ![L, a, b]⟩ : Shape).Idx → Val e)
    (inb : ∀ ax, (![o, 0, 0] : Fin 3 → ℕ) ax + (⟨3, ![1, a, b]⟩ : Shape).size ax ≤ (⟨3, ![L, a, b]⟩ : Shape).size ax)
    (hc : (⟨3, ![1, a, b]⟩ : Shape).ShapeCasts ⟨2, ![a, b]⟩) :
    shapeCast ⟨2, ![a, b]⟩
        (View.ld x (Rect.unit (s := ⟨3, ![L, a, b]⟩) ![o, 0, 0] (⟨3, ![1, a, b]⟩ : Shape).size inb)) hc
      = slab x o ho := by
  funext q
  obtain ⟨k, l, rfl⟩ : ∃ (k : Fin a) (l : Fin b), q = ix2 k l := ⟨q 0, q 1, eq_ix2 q⟩
  rw [shapeCast_1ab_ab_apply]
  exact ld_slab_apply o ho x inb k l

/-- The row loaded through the rectangle at offsets (o, 0) of extents [1, b], read at (0, j), is the stack's
    entry (o, j). -/
theorem ld_row_apply (o : ℕ) (ho : o < L) (x : (⟨2, ![L, b]⟩ : Shape).Idx → Val e)
    (inb : ∀ ax, (![o, 0] : Fin 2 → ℕ) ax + (⟨2, ![1, b]⟩ : Shape).size ax ≤ (⟨2, ![L, b]⟩ : Shape).size ax)
    (j : Fin b) :
    View.ld x (Rect.unit (s := ⟨2, ![L, b]⟩) ![o, 0] (⟨2, ![1, b]⟩ : Shape).size inb) (ix2 (0 : Fin 1) j)
      = x (ix2 (⟨o, ho⟩ : Fin L) j) := by
  refine congrArg x (funext fun ax => Fin.ext ?_)
  match ax with
  | ⟨0, _⟩ => show o + 1 * 0 = o; omega
  | ⟨1, _⟩ => show 0 + 1 * j.val = j.val; omega

/-- The same row cast to a vector and back to one row, as a function of the column, is member o. -/
theorem ld_row (o : ℕ) (ho : o < L) (x : (⟨2, ![L, b]⟩ : Shape).Idx → Val e)
    (inb : ∀ ax, (![o, 0] : Fin 2 → ℕ) ax + (⟨2, ![1, b]⟩ : Shape).size ax ≤ (⟨2, ![L, b]⟩ : Shape).size ax)
    (h1 : (⟨2, ![1, b]⟩ : Shape).ShapeCasts ⟨1, ![b]⟩) (h2 : (⟨1, ![b]⟩ : Shape).ShapeCasts ⟨2, ![1, b]⟩) :
    oneRow (shapeCast ⟨2, ![1, b]⟩ (shapeCast ⟨1, ![b]⟩
        (View.ld x (Rect.unit (s := ⟨2, ![L, b]⟩) ![o, 0] (⟨2, ![1, b]⟩ : Shape).size inb)) h1) h2)
      = row x o ho := by
  funext j
  show shapeCast ⟨2, ![1, b]⟩ (shapeCast ⟨1, ![b]⟩ _ h1) h2 (ix2 (0 : Fin 1) j) = _
  rw [shapeCast_a_1a_apply, shapeCast_1a_a_apply]
  exact ld_row_apply o ho x inb j

end Cert.Slabs

end
-- ==== Proof.LibNodeMlp.lean ====
/-
  A perceptron applied to every node of a one-feature graph convolution, layer by layer, over the extended reals and
  for any extents.

  Every node n carries two numbers, the sum a[n] of its in-neighbours' features and its own feature x[n].  The graph
  convolution gives it  g[n] = (a[n] · w_rel + b_rel) + x[n] · w_root;  the first perceptron layer spreads that one
  number over N hidden units,  max (g[n] · w_in[j] + b_in[j], 0);  a hidden layer maps a row H[n, :] to
  max (H[n, :] · W + b, 0);  the sigmoid of a number z is 1 / (1 + e^(-z)).

  Each of these is written here once as a function of the whole arrays, entry by entry (`inFn`, `denseFn`), with the
  two spellings a program gives it: the host's (matrix products by dot_general, a product with a one-row or one-column
  matrix being a sum of ONE term; biases broadcast from vectors; the sigmoid spelt out as a quotient) and a block
  body's (scalars and rows broadcast along the block, operands narrowed to sixteen bits, which changes nothing over
  the extended reals, products accumulated into zeros, the sigmoid as one operation).  Every entry of a layer's result
  depends on ONE row of its operand, so a block of rows and the whole array obey the same formula (`inAt_row`,
  `denseAt_row`).  No law beyond "a sum over one index is its term" is used, so nothing here needs finiteness.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«174690_j85186381349438_1_alg».proof.Proof.LibConsts
import proofs.«174690_j85186381349438_1_alg».proof.Proof.LibDotSum
import proofs.«174690_j85186381349438_1_alg».proof.Proof.LibSage
import proofs.«174690_j85186381349438_1_alg».proof.Proof.LibSlabs

noncomputable section

namespace Cert.NodeMlp

open Idealize.ShloMosaic Idealize.ShloMosaic.ValueIdx Cert.Slabs
open scoped BigOperators

variable {M K N : Nat}

/-! ## Small re-layouts read at an index -/

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, a, b] slab cast to [a, b] is the slab read at leading coordinate 0. -/
theorem slab_cast {α : Type} {a b : ℕ} (x : (⟨3, ![1, a, b]⟩ : Shape).Idx → α)
    (h : (⟨3, ![1, a, b]⟩ : Shape).ShapeCasts ⟨2, ![a, b]⟩) :
    shapeCast ⟨2, ![a, b]⟩ x h = fun q => x (ix3 (0 : Fin 1) (q 0) (q 1)) := by
  funext q
  obtain ⟨i, j, rfl⟩ : ∃ (i : Fin a) (j : Fin b), q = ix2 i j := ⟨q 0, q 1, eq_ix2 q⟩
  exact shapeCast_1ab_ab_apply x h i j

/-! ## A hidden layer -/

/-- Entry (r, j) of a hidden layer: the row-by-column product, the bias, the positive part. -/
def denseAt (H : (⟨2, ![M, K]⟩ : Shape).Idx → EReal) (W : (⟨2, ![K, N]⟩ : Shape).Idx → EReal) (b : Fin N → EReal)
    (r : Fin M) (j : Fin N) : EReal :=
  max ((∑ k : Fin K, H (ix2 r k) * W (ix2 k j)) + b j) 0

/-- A hidden layer as one array. -/
def denseFn (H : (⟨2, ![M, K]⟩ : Shape).Idx → EReal) (W : (⟨2, ![K, N]⟩ : Shape).Idx → EReal) (b : Fin N → EReal) :
    (⟨2, ![M, N]⟩ : Shape).Idx → EReal :=
  fun i => denseAt H W b (i 0) (i 1)

theorem denseFn_ix2 (H : (⟨2, ![M, K]⟩ : Shape).Idx → EReal) (W : (⟨2, ![K, N]⟩ : Shape).Idx → EReal) (b : Fin N → EReal)
    (r : Fin M) (j : Fin N) : denseFn H W b (ix2 r j) = denseAt H W b r j := rfl

/-- Row r of a block is row n of the array: the layer's entries in that row are the same numbers. -/
theorem denseFn_row {Mb : Nat} (Hb : (⟨2, ![Mb, K]⟩ : Shape).Idx → EReal) (H : (⟨2, ![M, K]⟩ : Shape).Idx → EReal)
    (W : (⟨2, ![K, N]⟩ : Shape).Idx → EReal) (b : Fin N → EReal) (r : Fin Mb) (n : Fin M)
    (hH : ∀ k, Hb (ix2 r k) = H (ix2 n k)) (j : Fin N) : denseFn Hb W b (ix2 r j) = denseFn H W b (ix2 n j) := by
  rw [denseFn_ix2, denseFn_ix2]
  unfold denseAt
  simp only [hH]

section Host

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include hlc hrc hln hrn hlb hrb in
/-- The host's spelling: H · W by dot_general, the bias broadcast from a vector, the maximum with a zero splat. -/
theorem host_dense (A : FVec Ideal ⟨2, ![M, K]⟩ .f32) (W : FVec Ideal ⟨2, ![K, N]⟩ .f32) (bv : FVec Ideal ⟨1, ![N]⟩ .f32) :
    maximumf (addf (Host.dotGeneral d none A W)
        (broadcastInDim ⟨2, ![M, N]⟩ ![0, 1] h2 (broadcastInDim ⟨2, ![1, N]⟩ ![1] h1 bv)))
      (broadcastInDim ⟨2, ![M, N]⟩ ![] h0 (constant ⟨0, ![]⟩ .f32 0x00000000#32))
    = denseFn A W (vecRow bv) := by
  funext i
  obtain ⟨r, j, rfl⟩ : ∃ (r : Fin M) (j : Fin N), i = ix2 r j := ⟨i 0, i 1, eq_ix2 i⟩
  show max (Host.dotGeneral d none A W (ix2 r j)
      + broadcastInDim ⟨2, ![M, N]⟩ ![0, 1] h2 (broadcastInDim ⟨2, ![1, N]⟩ ![1] h1 bv) (ix2 r j))
      (Ideal.ofBits .f32 0x00000000#32) = denseAt A W (vecRow bv) r j
  rw [Cert.Lib.dotGeneral_rc_apply d hlc hrc hln hrn hlb hrb, Cert.Sage.bias_apply, Cert.LibConsts.ofBits_zero]
  rfl

end Host

section Block

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])
  (hb : (⟨2, ![1, N]⟩ : Shape).Broadcasts ⟨2, ![M, N]⟩)

include hlc hrc hln hrn hlb hrb in
/-- A block body's spelling: both operands narrowed to sixteen bits, the product accumulated into zeros, a one-row
    bias broadcast down the block, the maximum with a zero splat. -/
theorem block_dense (hbits : FTy.bf16.bits < FTy.f32.bits) (A : FVec Ideal ⟨2, ![M, K]⟩ .f32)
    (W : FVec Ideal ⟨2, ![K, N]⟩ .f32) (b : FVec Ideal ⟨2, ![1, N]⟩ .f32) :
    maximumf (addf
        (matmul d none (truncf .bf16 A hbits) (truncf .bf16 W hbits) (constant ⟨2, ![M, N]⟩ .f32 0x00000000#32))
        (broadcastTo ⟨2, ![M, N]⟩ b hb))
      (broadcast ⟨2, ![M, N]⟩ (Scalar.ofBits (F := Ideal) .f32 0x00000000#32))
    = denseFn A W (oneRow b) := by
  funext i
  obtain ⟨r, j, rfl⟩ : ∃ (r : Fin M) (j : Fin N), i = ix2 r j := ⟨i 0, i 1, eq_ix2 i⟩
  show max (matmul d none (truncf .bf16 A hbits) (truncf .bf16 W hbits) (constant ⟨2, ![M, N]⟩ .f32 0x00000000#32) (ix2 r j)
      + broadcastTo ⟨2, ![M, N]⟩ b hb (ix2 r j)) (Ideal.ofBits .f32 0x00000000#32) = denseAt A W (oneRow b) r j
  rw [Cert.Lib.matmul_rc_apply d hlc hrc hln hrn hlb hrb, broadcastTo_1b_ab_apply, Cert.LibConsts.ofBits_zero]
  rfl

end Block

/-! ## The graph convolution and the first layer -/

/-- The convolution's value at node r. -/
def convAt (agg x : (⟨2, ![M, 1]⟩ : Shape).Idx → EReal) (wrel brel wroot : EReal) (r : Fin M) : EReal :=
  (agg (ix2 r (0 : Fin 1)) * wrel + brel) + x (ix2 r (0 : Fin 1)) * wroot

/-- Entry (r, j) of the first layer: the node's one number times the unit's weight, the bias, the positive part. -/
def inAt (agg x : (⟨2, ![M, 1]⟩ : Shape).Idx → EReal) (wrel brel wroot : EReal) (win bin : Fin N → EReal)
    (r : Fin M) (j : Fin N) : EReal :=
  max (convAt agg x wrel brel wroot r * win j + bin j) 0

/-- The first layer as one array. -/
def inFn (agg x : (⟨2, ![M, 1]⟩ : Shape).Idx → EReal) (wrel brel wroot : EReal) (win bin : Fin N → EReal) :
    (⟨2, ![M, N]⟩ : Shape).Idx → EReal :=
  fun i => inAt agg x wrel brel wroot win bin (i 0) (i 1)

theorem inFn_ix2 (agg x : (⟨2, ![M, 1]⟩ : Shape).Idx → EReal) (wrel brel wroot : EReal) (win bin : Fin N → EReal)
    (r : Fin M) (j : Fin N) : inFn agg x wrel brel wroot win bin (ix2 r j) = inAt agg x wrel brel wroot win bin r j := rfl

/-- Node r of a block is node n of the array: the first layer's entries for it are the same numbers. -/
theorem inFn_row {Mb : Nat} (aggb xb : (⟨2, ![Mb, 1]⟩ : Shape).Idx → EReal) (agg x : (⟨2, ![M, 1]⟩ : Shape).Idx → EReal)
    (wrel brel wroot : EReal) (win bin : Fin N → EReal) (r : Fin Mb) (n : Fin M)
    (ha : aggb (ix2 r (0 : Fin 1)) = agg (ix2 n (0 : Fin 1))) (hx : xb (ix2 r (0 : Fin 1)) = x (ix2 n (0 : Fin 1)))
    (j : Fin N) : inFn aggb xb wrel brel wroot win bin (ix2 r j) = inFn agg x wrel brel wroot win bin (ix2 n j) := by
  rw [inFn_ix2, inFn_ix2]
  unfold inAt convAt
  rw [ha, hx]

section HostIn

variable (d1 : DotDims ⟨2, ![M, 1]⟩ ⟨2, ![1, 1]⟩ ⟨2, ![M, 1]⟩)
  (e1lc : d1.lhsContracting = [1]) (e1rc : d1.rhsContracting = [0])
  (e1ln : d1.lhsNonContracting = [0]) (e1rn : d1.rhsNonContracting = [1])
  (e1lb : d1.lhsBatch = []) (e1rb : d1.rhsBatch = [])
  (d2 : DotDims ⟨2, ![M, 1]⟩ ⟨2, ![1, N]⟩ ⟨2, ![M, N]⟩)
  (e2lc : d2.lhsContracting = [1]) (e2rc : d2.rhsContracting = [0])
  (e2ln : d2.lhsNonContracting = [0]) (e2rn : d2.rhsNonContracting = [1])
  (e2lb : d2.lhsBatch = []) (e2rb : d2.rhsBatch = [])
  (g1 : (⟨1, ![1]⟩ : Shape).BroadcastsInDim ⟨2, ![1, 1]⟩ ![1])
  (g2 : (⟨2, ![1, 1]⟩ : Shape).BroadcastsInDim ⟨2, ![M, 1]⟩ ![0, 1])
  (h1 : (⟨1, ![N]⟩ : Shape).BroadcastsInDim ⟨2, ![1, N]⟩ ![1])
  (h2 : (⟨2, ![1, N]⟩ : Shape).BroadcastsInDim ⟨2, ![M, N]⟩ ![0, 1])
  (h0 : (⟨0, ![]⟩ : Shape).BroadcastsInDim ⟨2, ![M, N]⟩ ![])

include e1lc e1rc e1ln e1rn e1lb e1rb e2lc e2rc e2ln e2rn e2lb e2rb in
/-- The host's spelling: each scalar scale a product with a 1 × 1 matrix, the spread over the hidden units a product
    with a 1 × N matrix; a sum over one index is its one term. -/
theorem host_in (agg x : FVec Ideal ⟨2, ![M, 1]⟩ .f32) (wrel wroot : FVec Ideal ⟨2, ![1, 1]⟩ .f32)
    (brel : FVec Ideal ⟨1, ![1]⟩ .f32) (win : FVec Ideal ⟨2, ![1, N]⟩ .f32) (bin : FVec Ideal ⟨1, ![N]⟩ .f32) :
    maximumf (addf (Host.dotGeneral d2 none
          (addf (addf (Host.dotGeneral d1 none agg wrel)
              (broadcastInDim ⟨2, ![M, 1]⟩ ![0, 1] g2 (broadcastInDim ⟨2, ![1, 1]⟩ ![1] g1 brel)))
            (Host.dotGeneral d1 none x wroot)) win)
        (broadcastInDim ⟨2, ![M, N]⟩ ![0, 1] h2 (broadcastInDim ⟨2, ![1, N]⟩ ![1] h1 bin)))
      (broadcastInDim ⟨2, ![M, N]⟩ ![] h0 (constant ⟨0, ![]⟩ .f32 0x00000000#32))
    = inFn agg x (wrel (ix2 (0 : Fin 1) (0 : Fin 1))) (brel (ix1 (0 : Fin 1))) (wroot (ix2 (0 : Fin 1) (0 : Fin 1)))
        (oneRow win) (vecRow bin) := by
  funext i
  obtain ⟨r, j, rfl⟩ : ∃ (r : Fin M) (j : Fin N), i = ix2 r j := ⟨i 0, i 1, eq_ix2 i⟩
  show max (Host.dotGeneral d2 none
        (addf (addf (Host.dotGeneral d1 none agg wrel)
            (broadcastInDim ⟨2, ![M, 1]⟩ ![0, 1] g2 (broadcastInDim ⟨2, ![1, 1]⟩ ![1] g1 brel)))
          (Host.dotGeneral d1 none x wroot)) win (ix2 r j)
      + broadcastInDim ⟨2, ![M, N]⟩ ![0, 1] h2 (broadcastInDim ⟨2, ![1, N]⟩ ![1] h1 bin) (ix2 r j))
      (Ideal.ofBits .f32 0x00000000#32) = _
  rw [Cert.Lib.dotGeneral_rc_apply d2 e2lc e2rc e2ln e2rn e2lb e2rb, Cert.Sage.bias_apply, Cert.LibConsts.ofBits_zero,
    Fin.sum_univ_one]
  show max (((Host.dotGeneral d1 none agg wrel (ix2 r (0 : Fin 1))
        + broadcastInDim ⟨2, ![M, 1]⟩ ![0, 1] g2 (broadcastInDim ⟨2, ![1, 1]⟩ ![1] g1 brel) (ix2 r (0 : Fin 1)))
        + Host.dotGeneral d1 none x wroot (ix2 r (0 : Fin 1))) * win (ix2 (0 : Fin 1) j) + bin (ix1 j)) 0 = _
  rw [Cert.Lib.dotGeneral_rc_apply d1 e1lc e1rc e1ln e1rn e1lb e1rb, Cert.Lib.dotGeneral_rc_apply d1 e1lc e1rc e1ln e1rn e1lb e1rb,
    Cert.Sage.bias_apply, Fin.sum_univ_one, Fin.sum_univ_one]
  rfl

end HostIn

section BlockIn

variable (c0 : (⟨2, ![M, 1]⟩ : Shape).ShapeCasts ⟨2, ![M, 1]⟩) (c1 : (⟨1, ![1]⟩ : Shape).ShapeCasts ⟨2, ![1, 1]⟩)
  (cN : (⟨1, ![N]⟩ : Shape).ShapeCasts ⟨2, ![1, N]⟩)
  (b11 : (⟨2, ![1, 1]⟩ : Shape).Broadcasts ⟨2, ![M, 1]⟩) (bcol : (⟨2, ![M, 1]⟩ : Shape).Broadcasts ⟨2, ![M, N]⟩)
  (brow : (⟨2, ![1, N]⟩ : Shape).Broadcasts ⟨2, ![M, N]⟩)

/-- A block body's spelling: the three scalars broadcast down the block's column, the node's number broadcast along
    its row, the weights and the bias broadcast down the rows. -/
theorem block_in (v0 v2 : FVec Ideal ⟨2, ![M, 1]⟩ .f32) (v3 v5 : FVec Ideal ⟨2, ![1, 1]⟩ .f32) (v4 : FVec Ideal ⟨1, ![1]⟩ .f32)
    (v14 : FVec Ideal ⟨2, ![1, N]⟩ .f32) (v15 : FVec Ideal ⟨1, ![N]⟩ .f32) :
    maximumf (addf (mulf (broadcastTo ⟨2, ![M, N]⟩
            (addf (addf (mulf (shapeCast ⟨2, ![M, 1]⟩ v0 c0) (broadcastTo ⟨2, ![M, 1]⟩ v3 b11))
                (broadcastTo ⟨2, ![M, 1]⟩ (shapeCast ⟨2, ![1, 1]⟩ v4 c1) b11))
              (mulf v2 (broadcastTo ⟨2, ![M, 1]⟩ v5 b11))) bcol)
          (broadcastTo ⟨2, ![M, N]⟩ v14 brow))
        (broadcastTo ⟨2, ![M, N]⟩ (shapeCast ⟨2, ![1, N]⟩ v15 cN) brow))
      (broadcast ⟨2, ![M, N]⟩ (Scalar.ofBits (F := Ideal) .f32 0x00000000#32))
    = inFn v0 v2 (v3 (ix2 (0 : Fin 1) (0 : Fin 1))) (v4 (ix1 (0 : Fin 1))) (v5 (ix2 (0 : Fin 1) (0 : Fin 1)))
        (oneRow v14) (vecRow v15) := by
  funext i
  obtain ⟨r, j, rfl⟩ : ∃ (r : Fin M) (j : Fin N), i = ix2 r j := ⟨i 0, i 1, eq_ix2 i⟩
  show max ((broadcastTo ⟨2, ![M, N]⟩
          (addf (addf (mulf (shapeCast ⟨2, ![M, 1]⟩ v0 c0) (broadcastTo ⟨2, ![M, 1]⟩ v3 b11))
              (broadcastTo ⟨2, ![M, 1]⟩ (shapeCast ⟨2, ![1, 1]⟩ v4 c1) b11))
            (mulf v2 (broadcastTo ⟨2, ![M, 1]⟩ v5 b11))) bcol (ix2 r j)
        * broadcastTo ⟨2, ![M, N]⟩ v14 brow (ix2 r j))
      + broadcastTo ⟨2, ![M, N]⟩ (shapeCast ⟨2, ![1, N]⟩ v15 cN) brow (ix2 r j)) (Ideal.ofBits .f32 0x00000000#32) = _
  rw [broadcastTo_a1_ab_apply, broadcastTo_1b_ab_apply, broadcastTo_1b_ab_apply, shapeCast_a_1a_apply,
    Cert.LibConsts.ofBits_zero]
  show max (((shapeCast ⟨2, ![M, 1]⟩ v0 c0 (ix2 r (0 : Fin 1)) * broadcastTo ⟨2, ![M, 1]⟩ v3 b11 (ix2 r (0 : Fin 1))
        + broadcastTo ⟨2, ![M, 1]⟩ (shapeCast ⟨2, ![1, 1]⟩ v4 c1) b11 (ix2 r (0 : Fin 1)))
        + v2 (ix2 r (0 : Fin 1)) * broadcastTo ⟨2, ![M, 1]⟩ v5 b11 (ix2 r (0 : Fin 1))) * v14 (ix2 (0 : Fin 1) j)
      + v15 (ix1 j)) 0 = _
  rw [shapeCast_self, broadcastTo_1b_ab_apply, broadcastTo_1b_ab_apply, broadcastTo_1b_ab_apply, shapeCast_a_1a_apply]
  rfl

end BlockIn

/-! ## The output projection, its bias named as a row -/

section Out

variable (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hlc hrc hln hrn hlb hrb in
/-- The host's spelling of H · Wo + bo. -/
theorem host_out (h1 : (⟨1, ![N]⟩ : Shape).BroadcastsInDim ⟨2, ![1, N]⟩ ![1])
    (h2 : (⟨2, ![1, N]⟩ : Shape).BroadcastsInDim ⟨2, ![M, N]⟩ ![0, 1])
    (H : FVec Ideal ⟨2, ![M, K]⟩ .f32) (Wo : FVec Ideal ⟨2, ![K, N]⟩ .f32) (bv : FVec Ideal ⟨1, ![N]⟩ .f32) :
    addf (Host.dotGeneral d none H Wo)
      (broadcastInDim ⟨2, ![M, N]⟩ ![0, 1] h2 (broadcastInDim ⟨2, ![1, N]⟩ ![1] h1 bv))
    = Cert.Sage.outFn H Wo (vecRow bv) :=
  Cert.Sage.host_out d hlc hrc hln hrn hlb hrb h1 h2 H Wo bv

include hlc hrc hln hrn hlb hrb in
/-- A block body's spelling of H · Wo + bo. -/
theorem block_out (hb : (⟨2, ![1, N]⟩ : Shape).Broadcasts ⟨2, ![M, N]⟩) (hbits : FTy.bf16.bits < FTy.f32.bits)
    (H : FVec Ideal ⟨2, ![M, K]⟩ .f32) (Wo : FVec Ideal ⟨2, ![K, N]⟩ .f32) (b : FVec Ideal ⟨2, ![1, N]⟩ .f32) :
    addf (matmul d none (truncf .bf16 H hbits) (truncf .bf16 Wo hbits) (constant ⟨2, ![M, N]⟩ .f32 0x00000000#32))
      (broadcastTo ⟨2, ![M, N]⟩ b hb)
    = Cert.Sage.outFn H Wo (oneRow b) :=
  Cert.Sage.block_out d hlc hrc hln hrn hlb hrb hb hbits H Wo b

end Out

/-! ## The sigmoid -/

/-- The host's quotient 1 / (1 + e^(-z)), entry by entry, is the one-operation sigmoid. -/
theorem host_logistic {s : Shape} (h0 : (⟨0, ![]⟩ : Shape).BroadcastsInDim s ![]) (z : FVec Ideal s .f32) :
    Host.divf (broadcastInDim s ![] h0 (constant ⟨0, ![]⟩ .f32 0x3F800000#32))
      (addf (broadcastInDim s ![] h0 (constant ⟨0, ![]⟩ .f32 0x3F800000#32)) (Host.exp (Host.negf z)))
    = fun i => Ideal.logistic (z i) := by
  funext i
  show Ideal.div (Ideal.ofBits .f32 0x3F800000#32) (Ideal.ofBits .f32 0x3F800000#32 + Ideal.exp (-(z i))) = Ideal.logistic (z i)
  rw [Cert.LibConsts.ofBits_one]
  rfl

/-- The block body's one-operation sigmoid, entry by entry. -/
theorem block_logistic {s : Shape} (z : FVec Ideal s .f32) : logistic z = fun i => Ideal.logistic (z i) := rfl

end Cert.NodeMlp

end
-- ==== Proof.Spec.lean ====
/-
  What both programs compute, as one function of the arrays.

  For every node n of the graph let a[n] be the sum of the features of its in-neighbours (one number per edge into n)
  and x[n] its own feature.  The result at node n is

      sigmoid ( h₇[n, :] · w_out + b_out ),

  where  h₁[n, j] = max (((a[n] · w_rel + b_rel) + x[n] · w_root) · w_in[j] + b_in[j], 0)  and, for i = 0 … 5,
  h_(i+2)[n, :] = max (h_(i+1)[n, :] · w_hid[i] + b_hid[i], 0).

  The value at node n depends on a[n] and x[n] alone (besides the weights), so a block of nodes obeys the same formula
  as the whole array: `node_row`.  The row count M is left open for that reason; the hidden width 200 and the six
  hidden layers are this network's.
-/
import proofs.«174690_j85186381349438_1_alg».proof.Proof.LibNodeMlp
import proofs.«174690_j85186381349438_1_alg».proof.Proof.LibSlabs

noncomputable section

namespace Cert.Spec

open Idealize.ShloMosaic Idealize.ShloMosaic.ValueIdx Cert.NodeMlp Cert.Slabs

variable {M : Nat}

/-- A hidden layer's weights. -/
abbrev Mat := (⟨2, ![200, 200]⟩ : Shape).Idx → EReal
/-- A hidden layer's bias, or the first layer's weights or bias. -/
abbrev Row := Fin 200 → EReal

/-- The six hidden layers, one after another. -/
def stack6 (h : (⟨2, ![M, 200]⟩ : Shape).Idx → EReal) (W0 W1 W2 W3 W4 W5 : Mat) (B0 B1 B2 B3 B4 B5 : Row) :
    (⟨2, ![M, 200]⟩ : Shape).Idx → EReal :=
  denseFn (denseFn (denseFn (denseFn (denseFn (denseFn h W0 B0) W1 B1) W2 B2) W3 B3) W4 B4) W5 B5

/-- Row p of a block is row n of the array: after the six layers the two rows still agree. -/
theorem stack6_row {Mb : Nat} (hb : (⟨2, ![Mb, 200]⟩ : Shape).Idx → EReal) (h : (⟨2, ![M, 200]⟩ : Shape).Idx → EReal)
    (W0 W1 W2 W3 W4 W5 : Mat) (B0 B1 B2 B3 B4 B5 : Row) (p : Fin Mb) (n : Fin M)
    (hh : ∀ k, hb (ix2 p k) = h (ix2 n k)) (j : Fin 200) :
    stack6 hb W0 W1 W2 W3 W4 W5 B0 B1 B2 B3 B4 B5 (ix2 p j) = stack6 h W0 W1 W2 W3 W4 W5 B0 B1 B2 B3 B4 B5 (ix2 n j) := by
  unfold stack6
  exact denseFn_row _ _ W5 B5 p n (denseFn_row _ _ W4 B4 p n (denseFn_row _ _ W3 B3 p n (denseFn_row _ _ W2 B2 p n
    (denseFn_row _ _ W1 B1 p n (denseFn_row _ _ W0 B0 p n hh))))) j

/-- The network's value at every node, from the neighbour sums and the nodes' own features. -/
def node (agg x : (⟨2, ![M, 1]⟩ : Shape).Idx → EReal) (wrel brel wroot : EReal) (win bin : Row)
    (W0 W1 W2 W3 W4 W5 : Mat) (B0 B1 B2 B3 B4 B5 : Row) (wout : (⟨2, ![200, 1]⟩ : Shape).Idx → EReal) (bout : Fin 1 → EReal) :
    (⟨2, ![M, 1]⟩ : Shape).Idx → EReal :=
  fun i => Ideal.logistic (Cert.Sage.outFn (stack6 (inFn agg x wrel brel wroot win bin) W0 W1 W2 W3 W4 W5 B0 B1 B2 B3 B4 B5) wout bout i)

/-- Node p of a block is node n of the array when the two hold the same neighbour sum and the same feature. -/
theorem node_row {Mb : Nat} (aggb xb : (⟨2, ![Mb, 1]⟩ : Shape).Idx → EReal) (agg x : (⟨2, ![M, 1]⟩ : Shape).Idx → EReal)
    (wrel brel wroot : EReal) (win bin : Row) (W0 W1 W2 W3 W4 W5 : Mat) (B0 B1 B2 B3 B4 B5 : Row)
    (wout : (⟨2, ![200, 1]⟩ : Shape).Idx → EReal) (bout : Fin 1 → EReal) (p : Fin Mb) (n : Fin M)
    (ha : aggb (ix2 p (0 : Fin 1)) = agg (ix2 n (0 : Fin 1))) (hx : xb (ix2 p (0 : Fin 1)) = x (ix2 n (0 : Fin 1))) :
    node aggb xb wrel brel wroot win bin W0 W1 W2 W3 W4 W5 B0 B1 B2 B3 B4 B5 wout bout (ix2 p (0 : Fin 1))
      = node agg x wrel brel wroot win bin W0 W1 W2 W3 W4 W5 B0 B1 B2 B3 B4 B5 wout bout (ix2 n (0 : Fin 1)) := by
  unfold node
  show Ideal.logistic (Cert.Sage.outAt _ wout bout p (0 : Fin 1)) = Ideal.logistic (Cert.Sage.outAt _ wout bout n (0 : Fin 1))
  exact congrArg Ideal.logistic (Cert.Sage.outAt_row _ _ wout wout bout bout p n
    (fun k => stack6_row _ _ W0 W1 W2 W3 W4 W5 B0 B1 B2 B3 B4 B5 p n
      (fun k' => inFn_row aggb xb agg x wrel brel wroot win bin p n ha hx k') k)
    (fun _ _ => rfl) (fun _ => rfl) (0 : Fin 1))

/-- The result array from the neighbour sums, the features and the ten weight arrays as the programs hold them:
    hidden layer i's weights and bias are members i of the two stacks. -/
def result (agg x : (⟨2, ![M, 1]⟩ : Shape).Idx → EReal) (wrel : (⟨2, ![1, 1]⟩ : Shape).Idx → EReal)
    (brel : (⟨1, ![1]⟩ : Shape).Idx → EReal) (wroot : (⟨2, ![1, 1]⟩ : Shape).Idx → EReal)
    (win : (⟨2, ![1, 200]⟩ : Shape).Idx → EReal) (bin : (⟨1, ![200]⟩ : Shape).Idx → EReal)
    (whid : (⟨3, ![6, 200, 200]⟩ : Shape).Idx → EReal) (bhid : (⟨2, ![6, 200]⟩ : Shape).Idx → EReal)
    (wout : (⟨2, ![200, 1]⟩ : Shape).Idx → EReal) (bout : (⟨1, ![1]⟩ : Shape).Idx → EReal) :
    (⟨2, ![M, 1]⟩ : Shape).Idx → EReal :=
  node agg x (wrel (ix2 (0 : Fin 1) (0 : Fin 1))) (brel (ix1 (0 : Fin 1))) (wroot (ix2 (0 : Fin 1) (0 : Fin 1)))
    (oneRow win) (vecRow bin)
    (slab whid 0 (by decide)) (slab whid 1 (by decide)) (slab whid 2 (by decide))
    (slab whid 3 (by decide)) (slab whid 4 (by decide)) (slab whid 5 (by decide))
    (row bhid 0 (by decide)) (row bhid 1 (by decide)) (row bhid 2 (by decide))
    (row bhid 3 (by decide)) (row bhid 4 (by decide)) (row bhid 5 (by decide))
    wout (vecRow bout)

end Cert.Spec

end
-- ==== Proof.KernelPayload.lean ====
/-
  What the kernel's body computes for a block of nodes.

  The body reads a block of neighbour sums and the same block of features (8000 nodes each), the three scalars of the
  graph convolution, the first layer's weight row and bias, six [1, 200, 200] members of the weight stack and six
  [1, 200] members of the bias stack, and the output layer's weights and bias.  It scales and adds on whole
  [8000, 1] columns, spreads the result over the 200 hidden units by broadcasting, applies six times a product
  accumulated into zeros with operands narrowed to sixteen bits (no change over the extended reals), and ends with the
  sigmoid as one operation.  That is the specification's `node` of the loaded blocks.
-/
import proofs.«174690_j85186381349438_1_alg».proof.Proof.Gen.KernelIdeal.Skeleton
import proofs.«174690_j85186381349438_1_alg».proof.Proof.Spec

noncomputable section

open Idealize.ShloMosaic Idealize.ShloMosaic.TcCoe

namespace Cert.KernelIdeal.Hand

open Cert.KernelIdeal Cert.KernelIdeal.Gen Cert.NodeMlp Cert.Slabs Cert.Spec
open Idealize.ShloMosaic.ValueIdx

set_option maxRecDepth 8192 in
/-- The store's value, from the values the body loads, is the network's value at the block's nodes. -/
theorem payload_eq (v0 v2 : Vec Ideal S8000x1 .f32) (v3 : Vec Ideal S1x1 .f32) (v4 : Vec Ideal S1 .f32) (v5 : Vec Ideal S1x1 .f32)
    (v14 : Vec Ideal S1x200 .f32) (v15 : Vec Ideal S200 .f32)
    (v25 v37 v49 v61 v73 v85 : Vec Ideal S1x200x200 .f32) (v28 v40 v52 v64 v76 v88 : Vec Ideal S1x200 .f32)
    (v97 : Vec Ideal S200x1 .f32) (v99 : Vec Ideal S1 .f32) :
    k0_pay1 (k0_pay3 (k0_pay2 v0 v2 v3 v4 v5 v14 v15 v25 v28) v37 v40 v49 v52 v61 v64) (k0_pay4 v73) v76 v85 v88 v97 v99
      = node (M := 8000) v0 v2 (v3 (ix2 (0 : Fin 1) (0 : Fin 1))) (v4 (ix1 (0 : Fin 1))) (v5 (ix2 (0 : Fin 1) (0 : Fin 1)))
          (oneRow v14) (vecRow v15)
          (shapeCast S200x200 v25 shapeCasts_S1x200x200_S200x200) (shapeCast S200x200 v37 shapeCasts_S1x200x200_S200x200) (shapeCast S200x200 v49 shapeCasts_S1x200x200_S200x200)
          (shapeCast S200x200 v61 shapeCasts_S1x200x200_S200x200) (shapeCast S200x200 v73 shapeCasts_S1x200x200_S200x200) (shapeCast S200x200 v85 shapeCasts_S1x200x200_S200x200)
          (oneRow (shapeCast S1x200 (shapeCast S200 v28 shapeCasts_S1x200_S200) shapeCasts_S200_S1x200)) (oneRow (shapeCast S1x200 (shapeCast S200 v40 shapeCasts_S1x200_S200) shapeCasts_S200_S1x200))
          (oneRow (shapeCast S1x200 (shapeCast S200 v52 shapeCasts_S1x200_S200) shapeCasts_S200_S1x200)) (oneRow (shapeCast S1x200 (shapeCast S200 v64 shapeCasts_S1x200_S200) shapeCasts_S200_S1x200))
          (oneRow (shapeCast S1x200 (shapeCast S200 v76 shapeCasts_S1x200_S200) shapeCasts_S200_S1x200)) (oneRow (shapeCast S1x200 (shapeCast S200 v88 shapeCasts_S1x200_S200) shapeCasts_S200_S1x200))
          v97 (vecRow v99) := by
  unfold k0_pay1 k0_pay3 k0_pay2 k0_pay4
  dsimp only
  rw [block_in shapeCasts_S8000x1_S8000x1 shapeCasts_S1_S1x1 shapeCasts_S200_S1x200 broadcasts_S1x1_S8000x1
    broadcasts_S8000x1_S8000x200 broadcasts_S1x200_S8000x200]
  have hd := fun A W b => block_dense dot_S8000x200_S200x200_S8000x200_1_0_0_1_n_n rfl rfl rfl rfl rfl rfl
    broadcasts_S1x200_S8000x200 bitsLt_bf16_f32 A W b
  rw [hd, hd, hd, hd, hd, hd]
  rw [block_out dot_S8000x200_S200x1_S8000x1_1_0_0_1_n_n rfl rfl rfl rfl rfl rfl broadcasts_S1x1_S8000x1 bitsLt_bf16_f32,
    block_logistic, oneRow_cast v99 shapeCasts_S1_S1x1]
  rfl

end Cert.KernelIdeal.Hand

end
-- ==== Proof.KernelOut.lean ====
/-
  What the kernel's body leaves in the result window's buffer, from the blocks it reads.

  The body loads its two node blocks and five of the weight arrays whole, and members 0 … 5 of the two weight stacks
  through their rectangles; its one store covers the result block.  So the buffer ends holding the specification
  (`Spec.result` at 8000 rows) of the blocks.
-/
import proofs.«174690_j85186381349438_1_alg».proof.Proof.Gen.KernelIdeal.Frame
import proofs.«174690_j85186381349438_1_alg».proof.Proof.KernelPayload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.NodeMlp Cert.Slabs Cert.Spec
open Idealize.ShloMosaic.ValueIdx

theorem hz1 : (![0] : Fin 1 → Nat) = fun _ => 0 := funext fun a => by fin_cases a; rfl
theorem hz2 : (![0, 0] : Fin 2 → Nat) = fun _ => 0 := funext fun a => by fin_cases a <;> rfl

/-- The body's one store, over the blocks it loads, is the specification of those blocks: members 0 … 5 of the two
    weight stacks are what the body loads through their rectangles. -/
theorem out_eq (x0 x1 : Vec Ideal S8000x1 .f32) (x2 : Vec Ideal S1x1 .f32) (x3 : Vec Ideal S1 .f32) (x4 : Vec Ideal S1x1 .f32)
    (x5 : Vec Ideal S1x200 .f32) (x6 : Vec Ideal S200 .f32) (x7 : Vec Ideal S6x200x200 .f32) (x8 : Vec Ideal S6x200 .f32)
    (x9 : Vec Ideal S200x1 .f32) (x10 : Vec Ideal S1 .f32) :
    out0_11 x0 x1 x2 x3 x4 x5 x6 x7 x8 x9 x10 = result (M := 8000) x0 x1 x2 x3 x4 x5 x6 x7 x8 x9 x10 := by
  unfold out0_11
  rw [View.canon_unit_zero hz2]
  simp only [View.ld_unit_zero (S := S8000x1) hz2, View.ld_unit_zero (S := S1x1) hz2, View.ld_unit_zero (S := S1) hz1,
    View.ld_unit_zero (S := S1x200) hz2, View.ld_unit_zero (S := S200) hz1, View.ld_unit_zero (S := S200x1) hz2]
  rw [payload_eq]
  rw [ld_slab 0 (by decide) x7 _ shapeCasts_S1x200x200_S200x200, ld_slab 1 (by decide) x7 _ shapeCasts_S1x200x200_S200x200,
    ld_slab 2 (by decide) x7 _ shapeCasts_S1x200x200_S200x200, ld_slab 3 (by decide) x7 _ shapeCasts_S1x200x200_S200x200,
    ld_slab 4 (by decide) x7 _ shapeCasts_S1x200x200_S200x200, ld_slab 5 (by decide) x7 _ shapeCasts_S1x200x200_S200x200]
  rw [ld_row 0 (by decide) x8 _ shapeCasts_S1x200_S200 shapeCasts_S200_S1x200, ld_row 1 (by decide) x8 _ shapeCasts_S1x200_S200 shapeCasts_S200_S1x200,
    ld_row 2 (by decide) x8 _ shapeCasts_S1x200_S200 shapeCasts_S200_S1x200, ld_row 3 (by decide) x8 _ shapeCasts_S1x200_S200 shapeCasts_S200_S1x200,
    ld_row 4 (by decide) x8 _ shapeCasts_S1x200_S200 shapeCasts_S200_S1x200, ld_row 5 (by decide) x8 _ shapeCasts_S1x200_S200 shapeCasts_S200_S1x200]
  rfl

end Cert.KernelIdeal.Hand

end
-- ==== Proof.KernelBlocks.lean ====
/-
  The arrays the kernel's windows stage, and their blocks.

  The neighbour sums are computed by host operations before the kernel runs (`aggK`: the same gather and scatter-add
  as the reference's), so the first window reads an array the host wrote (`V_agg`).  The grid has 25 points; at point
  t the two node windows sit at block (t, 0), so row p of either block is row 8000·t + p of its array; every weight
  window sits at block index 0 of the array's own extents, so its block is the whole array.
-/
import proofs.«174690_j85186381349438_1_alg».proof.Proof.Gen.KernelIdeal.Frame
import proofs.«174690_j85186381349438_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.NodeMlp Cert.Slabs Cert.Spec
open Idealize.ShloMosaic.ValueIdx

variable (m : (ℓ : Loc nD τ sig) → Buf (Elt Ideal) ℓ) (ρ : Dev nD → PrngReg)

/-! ## The host operations before the kernel -/

/-- The neighbour sums as the host computes them before the kernel runs. -/
def aggK (x : FVec Ideal S200000x1 .f32) (ei : IVec S2x6400000 32) : FVec Ideal S200000x1 .f32 :=
  Host.scatterAdd scatter_S200000x1_S6400000x1_S6400000x1_1_0_0_1 (broadcastInDim S200000x1 ![] bcast_S_S200000x1 (constant (F := Ideal) S_ .f32 0x00000000#32)) (broadcastInDim S6400000x1 ![0] bcast_S6400000_S6400000x1_0 (shapeCast _ (extractStridedSlice S1x6400000 ![1, 0] ei slices_S2x6400000_S1x6400000_1_0) shapeCasts_S1x6400000_S6400000)) (Host.gather gather_S200000x1_S6400000x1_S6400000x1_1_0_n_n_0_1_11 x (broadcastInDim S6400000x1 ![0] bcast_S6400000_S6400000x1_0 (select (cmpi .slt (shapeCast _ (extractStridedSlice S1x6400000 ![0, 0] ei slices_S2x6400000_S1x6400000_0_0) shapeCasts_S1x6400000_S6400000) (broadcastInDim S6400000 ![] bcast_S_S6400000 (constantI S_ 32 0#32))) (addi (shapeCast _ (extractStridedSlice S1x6400000 ![0, 0] ei slices_S2x6400000_S1x6400000_0_0) shapeCasts_S1x6400000_S6400000) (broadcastInDim S6400000 ![] bcast_S_S6400000 (constantI S_ 32 200000#32))) (shapeCast _ (extractStridedSlice S1x6400000 ![0, 0] ei slices_S2x6400000_S1x6400000_0_0) shapeCasts_S1x6400000_S6400000))))

/-- The array the first window stages is the neighbour sums of the launch contents. -/
theorem V_agg (c : Dev nD) :
    (V m c main_v13 : FVec Ideal S200000x1 .f32) = aggK (m ((c : Thread nD τ).loc main_arg0)) (m ((c : Thread nD τ).loc main_arg1)) := by
  dsimp only [Gen.V, Gen.hostOps0]
  after_results
  rfl

/-! ## The windows' blocks -/

/-- The index maps, decided over the 25 points: the two node windows and the result's window sit at block (t, 0). -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The weight windows sit at block index 0 at every point. -/
theorem idx_resident : ∀ t : Fin cfg0.N, win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0 :=
  (by decide +kernel : ∀ t : Fin grid0.N, _)

/-- Row p of point t's block of window 0 (the neighbour sums), for any array of its extents, is row 8000·t + p of the array. -/
theorem read_rows0 (A : FVec Ideal S200000x1 .f32) (t : Fin cfg0.N) (p : Fin 8000) (n : Fin 200000) (hn : n.val = 8000 * t.val + p.val) :
    (((cfg0.win 0).blk t).view.read (Elt Ideal) A : Vec Ideal S8000x1 .f32) (ix2 p (0 : Fin 1)) = A (ix2 n (0 : Fin 1)) := by
  obtain ⟨e0, e1, -, -, -, -⟩ := idx_rows t
  show A (((cfg0.win 0).blk t).view.emb (ix2 p (0 : Fin 1))) = A (ix2 n (0 : Fin 1))
  refine congrArg A (funext fun a => Fin.ext ?_)
  match a with
  | ⟨0, _⟩ => show win0_0.index t (0 : Fin 2) * 8000 + 1 * p.val = n.val; rw [e0, hn]; omega
  | ⟨1, _⟩ => show win0_0.index t (1 : Fin 2) * 1 + 1 * 0 = 0; rw [e1]

/-- Row p of point t's block of window 1 (the features), for any array of its extents, is row 8000·t + p of the array. -/
theorem read_rows1 (A : FVec Ideal S200000x1 .f32) (t : Fin cfg0.N) (p : Fin 8000) (n : Fin 200000) (hn : n.val = 8000 * t.val + p.val) :
    (((cfg0.win 1).blk t).view.read (Elt Ideal) A : Vec Ideal S8000x1 .f32) (ix2 p (0 : Fin 1)) = A (ix2 n (0 : Fin 1)) := by
  obtain ⟨-, -, e0, e1, -, -⟩ := idx_rows t
  show A (((cfg0.win 1).blk t).view.emb (ix2 p (0 : Fin 1))) = A (ix2 n (0 : Fin 1))
  refine congrArg A (funext fun a => Fin.ext ?_)
  match a with
  | ⟨0, _⟩ => show win0_1.index t (0 : Fin 2) * 8000 + 1 * p.val = n.val; rw [e0, hn]; omega
  | ⟨1, _⟩ => show win0_1.index t (1 : Fin 2) * 1 + 1 * 0 = 0; rw [e1]

/-- Row p of point t's block of neighbour sums is the host's neighbour sum of node 8000·t + p. -/
theorem iblk0_apply (c : Dev nD) (t : Fin cfg0.N) (p : Fin 8000) (n : Fin 200000) (hn : n.val = 8000 * t.val + p.val) :
    (iblk m c 0 t : Vec Ideal S8000x1 .f32) (ix2 p (0 : Fin 1)) = aggK (m ((c : Thread nD τ).loc main_arg0)) (m ((c : Thread nD τ).loc main_arg1)) (ix2 n (0 : Fin 1)) := by
  unfold iblk
  exact (read_rows0 _ t p n hn).trans (congrFun (V_agg m c) _)

/-- Row p of point t's block of features is the feature of node 8000·t + p as launched. -/
theorem iblk1_apply (c : Dev nD) (t : Fin cfg0.N) (p : Fin 8000) (n : Fin 200000) (hn : n.val = 8000 * t.val + p.val) :
    (iblk m c 1 t : Vec Ideal S8000x1 .f32) (ix2 p (0 : Fin 1)) = (m ((c : Thread nD τ).loc main_arg0)) (ix2 n (0 : Fin 1)) := by
  unfold iblk
  exact (read_rows1 _ t p n hn).trans (congrFun (V_main_arg0 m c) _)

/-- Window 2's block of any array of its extents is the whole array: block index 0 of the array's own extents. -/
theorem read_whole2 (A : FVec Ideal S1x1 .f32) (t : Fin cfg0.N) :
    (((cfg0.win 2).blk t).view.read (Elt Ideal) A : Vec Ideal S1x1 .f32) = A := by
  obtain ⟨e0, e1, -, -, -, -, -, -, -, -, -, -, -, -, -, -⟩ := idx_resident t
  funext y
  show A (((cfg0.win 2).blk t).view.emb y) = A y
  refine congrArg A (funext fun a => Fin.ext ?_)
  match a with
  | ⟨0, _⟩ => show win0_2.index t (0 : Fin 2) * 1 + 1 * (y 0).val = (y 0).val; rw [e0]; omega
  | ⟨1, _⟩ => show win0_2.index t (1 : Fin 2) * 1 + 1 * (y 1).val = (y 1).val; rw [e1]; omega

/-- So at every point window 2's block is its argument array as launched. -/
theorem iblk2_m (c : Dev nD) (t : Fin cfg0.N) : (iblk m c 2 t : Vec Ideal S1x1 .f32) = m ((c : Thread nD τ).loc main_arg2) := by
  unfold iblk
  exact (read_whole2 _ t).trans (V_main_arg2 m c)

/-- Window 3's block of any array of its extents is the whole array: block index 0 of the array's own extents. -/
theorem read_whole3 (A : FVec Ideal S1 .f32) (t : Fin cfg0.N) :
    (((cfg0.win 3).blk t).view.read (Elt Ideal) A : Vec Ideal S1 .f32) = A := by
  obtain ⟨-, -, e2, -, -, -, -, -, -, -, -, -, -, -, -, -⟩ := idx_resident t
  funext y
  show A (((cfg0.win 3).blk t).view.emb y) = A y
  refine congrArg A (funext fun a => Fin.ext ?_)
  match a with
  | ⟨0, _⟩ => show win0_3.index t (0 : Fin 1) * 1 + 1 * (y 0).val = (y 0).val; rw [e2]; omega

/-- So at every point window 3's block is its argument array as launched. -/
theorem iblk3_m (c : Dev nD) (t : Fin cfg0.N) : (iblk m c 3 t : Vec Ideal S1 .f32) = m ((c : Thread nD τ).loc main_arg3) := by
  unfold iblk
  exact (read_whole3 _ t).trans (V_main_arg3 m c)

/-- Window 4's block of any array of its extents is the whole array: block index 0 of the array's own extents. -/
theorem read_whole4 (A : FVec Ideal S1x1 .f32) (t : Fin cfg0.N) :
    (((cfg0.win 4).blk t).view.read (Elt Ideal) A : Vec Ideal S1x1 .f32) = A := by
  obtain ⟨-, -, -, e3, e4, -, -, -, -, -, -, -, -, -, -, -⟩ := idx_resident t
  funext y
  show A (((cfg0.win 4).blk t).view.emb y) = A y
  refine congrArg A (funext fun a => Fin.ext ?_)
  match a with
  | ⟨0, _⟩ => show win0_4.index t (0 : Fin 2) * 1 + 1 * (y 0).val = (y 0).val; rw [e3]; omega
  | ⟨1, _⟩ => show win0_4.index t (1 : Fin 2) * 1 + 1 * (y 1).val = (y 1).val; rw [e4]; omega

/-- So at every point window 4's block is its argument array as launched. -/
theorem iblk4_m (c : Dev nD) (t : Fin cfg0.N) : (iblk m c 4 t : Vec Ideal S1x1 .f32) = m ((c : Thread nD τ).loc main_arg4) := by
  unfold iblk
  exact (read_whole4 _ t).trans (V_main_arg4 m c)

/-- Window 5's block of any array of its extents is the whole array: block index 0 of the array's own extents. -/
theorem read_whole5 (A : FVec Ideal S1x200 .f32) (t : Fin cfg0.N) :
    (((cfg0.win 5).blk t).view.read (Elt Ideal) A : Vec Ideal S1x200 .f32) = A := by
  obtain ⟨-, -, -, -, -, e5, e6, -, -, -, -, -, -, -, -, -⟩ := idx_resident t
  funext y
  show A (((cfg0.win 5).blk t).view.emb y) = A y
  refine congrArg A (funext fun a => Fin.ext ?_)
  match a with
  | ⟨0, _⟩ => show win0_5.index t (0 : Fin 2) * 1 + 1 * (y 0).val = (y 0).val; rw [e5]; omega
  | ⟨1, _⟩ => show win0_5.index t (1 : Fin 2) * 200 + 1 * (y 1).val = (y 1).val; rw [e6]; omega

/-- So at every point window 5's block is its argument array as launched. -/
theorem iblk5_m (c : Dev nD) (t : Fin cfg0.N) : (iblk m c 5 t : Vec Ideal S1x200 .f32) = m ((c : Thread nD τ).loc main_arg5) := by
  unfold iblk
  exact (read_whole5 _ t).trans (V_main_arg5 m c)

/-- Window 6's block of any array of its extents is the whole array: block index 0 of the array's own extents. -/
theorem read_whole6 (A : FVec Ideal S200 .f32) (t : Fin cfg0.N) :
    (((cfg0.win 6).blk t).view.read (Elt Ideal) A : Vec Ideal S200 .f32) = A := by
  obtain ⟨-, -, -, -, -, -, -, e7, -, -, -, -, -, -, -, -⟩ := idx_resident t
  funext y
  show A (((cfg0.win 6).blk t).view.emb y) = A y
  refine congrArg A (funext fun a => Fin.ext ?_)
  match a with
  | ⟨0, _⟩ => show win0_6.index t (0 : Fin 1) * 200 + 1 * (y 0).val = (y 0).val; rw [e7]; omega

/-- So at every point window 6's block is its argument array as launched. -/
theorem iblk6_m (c : Dev nD) (t : Fin cfg0.N) : (iblk m c 6 t : Vec Ideal S200 .f32) = m ((c : Thread nD τ).loc main_arg6) := by
  unfold iblk
  exact (read_whole6 _ t).trans (V_main_arg6 m c)

/-- Window 7's block of any array of its extents is the whole array: block index 0 of the array's own extents. -/
theorem read_whole7 (A : FVec Ideal S6x200x200 .f32) (t : Fin cfg0.N) :
    (((cfg0.win 7).blk t).view.read (Elt Ideal) A : Vec Ideal S6x200x200 .f32) = A := by
  obtain ⟨-, -, -, -, -, -, -, -, e8, e9, e10, -, -, -, -, -⟩ := idx_resident t
  funext y
  show A (((cfg0.win 7).blk t).view.emb y) = A y
  refine congrArg A (funext fun a => Fin.ext ?_)
  match a with
  | ⟨0, _⟩ => show win0_7.index t (0 : Fin 3) * 6 + 1 * (y 0).val = (y 0).val; rw [e8]; omega
  | ⟨1, _⟩ => show win0_7.index t (1 : Fin 3) * 200 + 1 * (y 1).val = (y 1).val; rw [e9]; omega
  | ⟨2, _⟩ => show win0_7.index t (2 : Fin 3) * 200 + 1 * (y 2).val = (y 2).val; rw [e10]; omega

/-- So at every point window 7's block is its argument array as launched. -/
theorem iblk7_m (c : Dev nD) (t : Fin cfg0.N) : (iblk m c 7 t : Vec Ideal S6x200x200 .f32) = m ((c : Thread nD τ).loc main_arg7) := by
  unfold iblk
  exact (read_whole7 _ t).trans (V_main_arg7 m c)

/-- Window 8's block of any array of its extents is the whole array: block index 0 of the array's own extents. -/
theorem read_whole8 (A : FVec Ideal S6x200 .f32) (t : Fin cfg0.N) :
    (((cfg0.win 8).blk t).view.read (Elt Ideal) A : Vec Ideal S6x200 .f32) = A := by
  obtain ⟨-, -, -, -, -, -, -, -, -, -, -, e11, e12, -, -, -⟩ := idx_resident t
  funext y
  show A (((cfg0.win 8).blk t).view.emb y) = A y
  refine congrArg A (funext fun a => Fin.ext ?_)
  match a with
  | ⟨0, _⟩ => show win0_8.index t (0 : Fin 2) * 6 + 1 * (y 0).val = (y 0).val; rw [e11]; omega
  | ⟨1, _⟩ => show win0_8.index t (1 : Fin 2) * 200 + 1 * (y 1).val = (y 1).val; rw [e12]; omega

/-- So at every point window 8's block is its argument array as launched. -/
theorem iblk8_m (c : Dev nD) (t : Fin cfg0.N) : (iblk m c 8 t : Vec Ideal S6x200 .f32) = m ((c : Thread nD τ).loc main_arg8) := by
  unfold iblk
  exact (read_whole8 _ t).trans (V_main_arg8 m c)

/-- Window 9's block of any array of its extents is the whole array: block index 0 of the array's own extents. -/
theorem read_whole9 (A : FVec Ideal S200x1 .f32) (t : Fin cfg0.N) :
    (((cfg0.win 9).blk t).view.read (Elt Ideal) A : Vec Ideal S200x1 .f32) = A := by
  obtain ⟨-, -, -, -, -, -, -, -, -, -, -, -, -, e13, e14, -⟩ := idx_resident t
  funext y
  show A (((cfg0.win 9).blk t).view.emb y) = A y
  refine congrArg A (funext fun a => Fin.ext ?_)
  match a with
  | ⟨0, _⟩ => show win0_9.index t (0 : Fin 2) * 200 + 1 * (y 0).val = (y 0).val; rw [e13]; omega
  | ⟨1, _⟩ => show win0_9.index t (1 : Fin 2) * 1 + 1 * (y 1).val = (y 1).val; rw [e14]; omega

/-- So at every point window 9's block is its argument array as launched. -/
theorem iblk9_m (c : Dev nD) (t : Fin cfg0.N) : (iblk m c 9 t : Vec Ideal S200x1 .f32) = m ((c : Thread nD τ).loc main_arg9) := by
  unfold iblk
  exact (read_whole9 _ t).trans (V_main_arg9 m c)

/-- Window 10's block of any array of its extents is the whole array: block index 0 of the array's own extents. -/
theorem read_whole10 (A : FVec Ideal S1 .f32) (t : Fin cfg0.N) :
    (((cfg0.win 10).blk t).view.read (Elt Ideal) A : Vec Ideal S1 .f32) = A := by
  obtain ⟨-, -, -, -, -, -, -, -, -, -, -, -, -, -, -, e15⟩ := idx_resident t
  funext y
  show A (((cfg0.win 10).blk t).view.emb y) = A y
  refine congrArg A (funext fun a => Fin.ext ?_)
  match a with
  | ⟨0, _⟩ => show win0_10.index t (0 : Fin 1) * 1 + 1 * (y 0).val = (y 0).val; rw [e15]; omega

/-- So at every point window 10's block is its argument array as launched. -/
theorem iblk10_m (c : Dev nD) (t : Fin cfg0.N) : (iblk m c 10 t : Vec Ideal S1 .f32) = m ((c : Thread nD τ).loc main_arg10) := by
  unfold iblk
  exact (read_whole10 _ t).trans (V_main_arg10 m c)

end Cert.KernelIdeal.Hand

end
-- ==== Proof.KernelValue.lean ====
/-
  The kernel's result array, from its blocks.

  The neighbour sums are computed by host operations before the kernel runs (`aggK`: the same gather and scatter-add
  as the reference's), so the kernel's first window reads an array the host wrote.  The grid has 25 points; point t
  reads rows 8000·t … 8000·t + 7999 of the neighbour sums and of the features, reads every weight array whole (their
  windows sit at block index 0 at every point), and writes rows 8000·t … 8000·t + 7999 of the result.  What it writes
  is the specification of its blocks (`out_eq`), and the specification's value at a node depends only on that node's
  neighbour sum and feature (`Spec.node_row`), so point t writes block t of the specification of the WHOLE arrays
  (`flushed_eq`).  The 25 blocks cover the 200000 rows: row r lies in block r / 8000 (`cover`).  Hence the result
  array ends holding the specification of the whole arrays (`final`, `run`).
-/
import proofs.«174690_j85186381349438_1_alg».proof.Proof.Gen.KernelIdeal.Value
import proofs.«174690_j85186381349438_1_alg».proof.Proof.KernelOut
import proofs.«174690_j85186381349438_1_alg».proof.Proof.KernelBlocks
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.NodeMlp Cert.Slabs Cert.Spec
open Idealize.ShloMosaic.ValueIdx

variable (m : (ℓ : Loc nD τ sig) → Buf (Elt Ideal) ℓ) (ρ : Dev nD → PrngReg)

/-! ## From the blocks to the array -/

/-- The specification of the whole arrays as launched. -/
def G (c : Dev nD) : FVec Ideal S200000x1 .f32 :=
  result (M := 200000) (aggK (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- A block of 8000 rows whose row p is row 8000·t + p of an array is what the result window reads of that array at
    point t. -/
theorem cut_eq_read (t : Fin cfg0.N) (R : Vec Ideal S8000x1 .f32) (Gf : FVec Ideal S200000x1 .f32)
    (h : ∀ (p : Fin 8000) (n : Fin 200000), n.val = 8000 * t.val + p.val → R (ix2 p (0 : Fin 1)) = Gf (ix2 n (0 : Fin 1))) :
    (cfg0.win 11).cut (grid0.coords t) R = ((cfg0.win 11).blk t).view.read (Elt Ideal) Gf := by
  obtain ⟨-, -, -, -, e0, e1⟩ := idx_rows t
  funext j
  obtain ⟨p, q, rfl⟩ : ∃ (p : Fin 8000) (q : Fin 1), j = ix2 p q := ⟨j 0, j 1, eq_ix2 j⟩
  obtain rfl : q = 0 := Subsingleton.elim q 0
  have hn : 8000 * t.val + p.val < 200000 := by
    have h1 : t.val < 25 := lt_of_lt_of_eq t.isLt N_0
    have h2 := p.isLt
    omega
  have hemb : ((cfg0.win 11).blk t).view.emb (ix2 p (0 : Fin 1)) = ix2 (⟨8000 * t.val + p.val, hn⟩ : Fin 200000) (0 : Fin 1) := by
    funext a
    apply Fin.ext
    match a with
    | ⟨0, _⟩ => show win0_11.index t (0 : Fin 2) * 8000 + 1 * p.val = 8000 * t.val + p.val; rw [e0]; omega
    | ⟨1, _⟩ => show win0_11.index t (1 : Fin 2) * 1 + 1 * 0 = 0; rw [e1]
  show R (ix2 p (0 : Fin 1)) = Gf (((cfg0.win 11).blk t).view.emb (ix2 p (0 : Fin 1)))
  rw [hemb]
  exact h p ⟨8000 * t.val + p.val, hn⟩ rfl

/-- What point t writes back is block t of the specification of the whole arrays: the specification of the point's
    blocks, row by row, by the locality of a node's value. -/
theorem flushed_eq (c : Dev nD) (t : Fin cfg0.N) :
    (dats m 0 c).flushed 11 t = ((cfg0.win 11).blk t).view.read (Elt Ideal) (G m c) := by
  rw [Value.flushed11, out_eq]
  rw [iblk2_m, iblk3_m, iblk4_m, iblk5_m, iblk6_m, iblk7_m, iblk8_m, iblk9_m, iblk10_m]
  refine cut_eq_read t _ _ fun p n hn => ?_
  unfold G result
  exact node_row _ _ _ _ _ _ _ _ _ _ _ _ _ _ _ _ _ _ _ _ _ _ _ p n (iblk0_apply m c t p n hn) (iblk1_apply m c t p n hn)

/-- An index of the result array is in point t's block iff each coordinate is in the block's range on its axis. -/
theorem mem_blk (t : Fin cfg0.N) (i : S200000x1.Idx) :
    i ∈ ((cfg0.win 11).blk t).view.set ↔ ∀ a : Fin 2, win0_11.index t a * S8000x1.size a ≤ (i a).val ∧ (i a).val < win0_11.index t a * S8000x1.size a + S8000x1.size a := by
  show i ∈ ((View.whole main_v14).slice (win0_11.rect t)).set ↔ _
  rw [View.set_slice_whole, Rect.mem_set_unit]
  exact Iff.rfl

/-- Row r of the result lies in the block of point r / 8000, which writes back. -/
theorem cover (i : S200000x1.Idx) : ∃ t : Fin cfg0.N, (cfg0.win 11).flush t = true ∧ i ∈ ((cfg0.win 11).blk t).view.set := by
  have hi0 : (i 0).val < 200000 := (i 0).isLt
  have hi1 : (i 1).val < 1 := (i 1).isLt
  obtain ⟨t, ht⟩ : ∃ t : Fin cfg0.N, t.val = (i 0).val / 8000 :=
    ⟨⟨(i 0).val / 8000, by rw [show cfg0.N = 25 from N_0]; omega⟩, rfl⟩
  obtain ⟨-, -, -, -, e0, e1⟩ := idx_rows t
  refine ⟨t, flush0_11 t, ?_⟩
  rw [mem_blk]
  intro a
  match a with
  | ⟨0, _⟩ => show win0_11.index t (0 : Fin 2) * 8000 ≤ (i 0).val ∧ (i 0).val < win0_11.index t (0 : Fin 2) * 8000 + 8000; rw [e0, ht]; omega
  | ⟨1, _⟩ => show win0_11.index t (1 : Fin 2) * 1 ≤ (i 1).val ∧ (i 1).val < win0_11.index t (1 : Fin 2) * 1 + 1; rw [e1]; omega

/-- The result array after the run is the specification of the whole arrays. -/
theorem final (c : Dev nD) : (dats m 0 c).arrAt 11 cfg0.N = G m c :=
  (dats m 0 c).arrAt_eq_of_cover 11 (G m c) (fun t _ => flushed_eq m c t) cover

/-- The run, read: the result array at the specification of the launch contents, the arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Hand

end
-- ==== Proof.RefValue.lean ====
/-
  The reference's result is `Spec.result` of the neighbour sums and the argument arrays.

  The reference computes the neighbour sums a = segment_sum (x[src], dst) with host operations (`aggR`: a gather of the
  source features and a scatter-add at the destinations), then every layer as a matrix product with a broadcast bias:
  the two scalar scales are products with 1 × 1 matrices and the spread over the hidden units a product with a 1 × 200
  matrix, sums of ONE term each; hidden layer i takes member i of the two weight stacks by a slice and a reshape; the
  sigmoid is spelt 1 / (1 + e^(-z)).  Layer by layer the run's term is the specification's.
-/
import proofs.«174690_j85186381349438_1_alg».proof.Proof.Gen.ReferenceIdeal.Run
import proofs.«174690_j85186381349438_1_alg».proof.Proof.Spec

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.Value Cert.NodeMlp Cert.Slabs Cert.Spec
open Idealize.ShloMosaic.ValueIdx

/-- The neighbour sums as the host computes them: the source index of every edge brought into range, the sources'
    features gathered, and each added into its destination's entry of an array of zeros. -/
def aggR (x : FVec Ideal S200000x1 .f32) (ei : IVec S2x6400000 32) : FVec Ideal S200000x1 .f32 :=
  Host.scatterAdd scatter_S200000x1_S6400000x1_S6400000x1_1_0_0_1 (broadcastInDim S200000x1 ![] bcast_S_S200000x1 (constant (F := Ideal) S_ .f32 0x00000000#32)) (broadcastInDim S6400000x1 ![0] bcast_S6400000_S6400000x1_0 (shapeCast _ (extractStridedSlice S1x6400000 ![1, 0] ei slices_S2x6400000_S1x6400000_1_0) shapeCasts_S1x6400000_S6400000)) (Host.gather gather_S200000x1_S6400000x1_S6400000x1_1_0_n_n_0_1_11 x (broadcastInDim S6400000x1 ![0] bcast_S6400000_S6400000x1_0 (select (cmpi .slt (shapeCast _ (extractStridedSlice S1x6400000 ![0, 0] ei slices_S2x6400000_S1x6400000_0_0) shapeCasts_S1x6400000_S6400000) (broadcastInDim S6400000 ![] bcast_S_S6400000 (constantI S_ 32 0#32))) (addi (shapeCast _ (extractStridedSlice S1x6400000 ![0, 0] ei slices_S2x6400000_S1x6400000_0_0) shapeCasts_S1x6400000_S6400000) (broadcastInDim S6400000 ![] bcast_S_S6400000 (constantI S_ 32 200000#32))) (shapeCast _ (extractStridedSlice S1x6400000 ![0, 0] ei slices_S2x6400000_S1x6400000_0_0) shapeCasts_S1x6400000_S6400000))))

set_option maxRecDepth 8192 in
/-- The reference run's result term is the specification of the neighbour sums and the arguments. -/
theorem ref_eq (m : (ℓ : Loc nD τ sig) → Buf (Elt Ideal) ℓ) (c : Dev nD) :
    res_main_v88 (F := Ideal) m c
      = result (M := 200000) (aggR (m ((c.tc : Thread nD τ).loc main_arg0)) (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold res_main_v88
  rw [host_in dot_S200000x1_S1x1_S200000x1_1_0_0_1_n_n rfl rfl rfl rfl rfl rfl
    dot_S200000x1_S1x200_S200000x200_1_0_0_1_n_n rfl rfl rfl rfl rfl rfl
    bcast_S1_S1x1_1 bcast_S1x1_S200000x1_0_1 bcast_S200_S1x200_1 bcast_S1x200_S200000x200_0_1 bcast_S_S200000x200]
  have hd := fun A W bv => host_dense dot_S200000x200_S200x200_S200000x200_1_0_0_1_n_n rfl rfl rfl rfl rfl rfl
    bcast_S200_S1x200_1 bcast_S1x200_S200000x200_0_1 bcast_S_S200000x200 A W bv
  rw [hd, hd, hd, hd, hd, hd]
  rw [host_out dot_S200000x200_S200x1_S200000x1_1_0_0_1_n_n rfl rfl rfl rfl rfl rfl bcast_S1_S1x1_1 bcast_S1x1_S200000x1_0_1,
    host_logistic bcast_S_S200000x1]
  rw [slice_slab 0 (by decide) _ slices_S6x200x200_S1x200x200_0_0_0 shapeCasts_S1x200x200_S200x200,
    slice_slab 1 (by decide) _ slices_S6x200x200_S1x200x200_1_0_0 shapeCasts_S1x200x200_S200x200,
    slice_slab 2 (by decide) _ slices_S6x200x200_S1x200x200_2_0_0 shapeCasts_S1x200x200_S200x200,
    slice_slab 3 (by decide) _ slices_S6x200x200_S1x200x200_3_0_0 shapeCasts_S1x200x200_S200x200,
    slice_slab 4 (by decide) _ slices_S6x200x200_S1x200x200_4_0_0 shapeCasts_S1x200x200_S200x200,
    slice_slab 5 (by decide) _ slices_S6x200x200_S1x200x200_5_0_0 shapeCasts_S1x200x200_S200x200]
  rw [slice_row 0 (by decide) _ slices_S6x200_S1x200_0_0 shapeCasts_S1x200_S200,
    slice_row 1 (by decide) _ slices_S6x200_S1x200_1_0 shapeCasts_S1x200_S200,
    slice_row 2 (by decide) _ slices_S6x200_S1x200_2_0 shapeCasts_S1x200_S200,
    slice_row 3 (by decide) _ slices_S6x200_S1x200_3_0 shapeCasts_S1x200_S200,
    slice_row 4 (by decide) _ slices_S6x200_S1x200_4_0 shapeCasts_S1x200_S200,
    slice_row 5 (by decide) _ slices_S6x200_S1x200_5_0 shapeCasts_S1x200_S200]
  rfl

end Cert.ReferenceIdeal.RefValue

end
-- ==== Proof.lean ====
/-
  A graph convolution over one feature followed by an eight-layer perceptron, applied to every node: the kernel against
  the plain array program, over the extended reals.

  Both programs first form, with the same host operations, the neighbour sums  a[n] = Σ over edges (s → n) of x[s]
  (a gather of the sources' features, a scatter-add into an array of zeros).  Then, for every node n,

      g    = (a[n] · w_rel + b_rel) + x[n] · w_root
      h₁   = max (g · w_in + b_in, 0)                       a row of 200 numbers
      hᵢ₊₂ = max (hᵢ₊₁ · w_hid[i] + b_hid[i], 0)             i = 0 … 5
      out  = sigmoid (h₇ · w_out + b_out).

  The array program writes the two scalar scales and the spread over the hidden units as matrix products with 1 × 1
  and 1 × 200 matrices (sums of ONE term) and the sigmoid as 1 / (1 + e^(-z)); the kernel works on blocks of 8000 nodes,
  multiplies by broadcast scalars and rows, narrows the operands of its products to sixteen bits (no change over the
  extended reals), accumulates each product into zeros, and uses the sigmoid as one operation, which over the extended
  reals IS 1 / (1 + e^(-z)).  Term for term the two are one function of the arrays (`Spec.result`); no sum is
  regrouped and nothing is distributed or cancelled, so the proof never needs the inputs to be finite.

  The value at node n depends on a[n] and x[n] alone, so the kernel's 25 blocks, each the specification of its own
  rows, tile the specification of the whole arrays (KernelValue.lean).  The reference's run is read layer by layer
  (RefValue.lean).  The two programs name the gather and the scatter by their own records of the same dimension numbers;
  the two spellings of the neighbour sums are one term.

  The ideal pass rewrote nothing in the kernel, so `preserves` has nothing to state.
-/
import proofs.«174690_j85186381349438_1_alg».proof.Defs
import proofs.«174690_j85186381349438_1_alg».proof.Proof.Gen.Kernel
import proofs.«174690_j85186381349438_1_alg».proof.Proof.Gen.Kernel.Frame
import proofs.«174690_j85186381349438_1_alg».proof.Proof.Gen.KernelIdeal
import proofs.«174690_j85186381349438_1_alg».proof.Proof.Gen.KernelIdeal.Frame
import proofs.«174690_j85186381349438_1_alg».proof.Proof.Gen.KernelIdeal.Value
import proofs.«174690_j85186381349438_1_alg».proof.Proof.Gen.ReferenceIdeal
import proofs.«174690_j85186381349438_1_alg».proof.Proof.Gen.ReferenceIdeal.Run
import proofs.«174690_j85186381349438_1_alg».proof.Proof.Gen.Pre_finite_inputs
import proofs.«174690_j85186381349438_1_alg».proof.Proof.KernelValue
import proofs.«174690_j85186381349438_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The array program is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the arguments, the kernel's result array and the array program's result both end at
    the specification of the launch contents. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_eq]
  obtain ⟨a0, a1, a2, a3, a4, a5, a6, a7, a8, a9, a10⟩ := hagree c
  rw [a0, a1, a2, a3, a4, a5, a6, a7, a8, a9, a10]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
